-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4096x4096 .f32) (main_arg1 : FVec F S4096x256 .f32) (main_arg2 : FVec F S256x256 .f32) (main_arg3 : FVec F S256 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S1x256 : Shape := ⟨2, ![1, 256]⟩
abbrev S1024x256 : Shape := ⟨2, ![1024, 256]⟩
abbrev S256x4096 : Shape := ⟨2, ![256, 4096]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S4096x256, .bf16⟩
  | .hbm, ⟨6, _⟩ => ⟨S4096x256, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1024x256, .bf16⟩
  | .local _ .vmem, ⟨4, _⟩ => ⟨S1024x256, .bf16⟩
  | .local _ .vmem, ⟨5, _⟩ => ⟨S256x4096, .f32⟩
  | .local _ .vmem, ⟨6, _⟩ => ⟨S256x4096, .f32⟩
  | .local _ .vmem, ⟨7, _⟩ => ⟨S4096x256, .bf16⟩
  | .local _ .vmem, ⟨8, _⟩ => ⟨S1x256, .f32⟩
  | .local _ .vmem, ⟨9, _⟩ => ⟨S256x256, .f32⟩
  | .local _ .vmem, ⟨10, _⟩ => ⟨S256x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S1024x256_S1024x256_0_0 : (Rect.unit (s := S1024x256) ![0, 0] S1024x256.size inb_S1024x256_S1024x256_0_0).PackedRows (EltTy.packing .bf16)
  inb_S256x4096_S256x4096_0_0 : ∀ a, (![0, 0] : Fin 2 → Nat) a + S256x4096.size a ≤ S256x4096.size a
  h_S256x4096 : 0 < S256x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S1024x256_S256x256_S1024x256_1_0_0_1_n_n_wf : DotDims.WF S1024x256 S256x256 S1024x256 [1] [0] [0] [1] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .bf16 = 32 ∨ (Rect.block (s := S4096x256) S1024x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S4096x256.size a
  hwx1_3 : ∀ i : grid1.Coords, EltTy.bits .f32 = 32 ∨ (Rect.block (s := S4096x256) S256x256.size (cc1_transform_3 i) (hinb1_3 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S_ : Shape := ⟨0, ![]⟩
abbrev S1x256 : Shape := ⟨2, ![1, 256]⟩

abbrev nBuf : Space → Nat
  | .hbm => 22
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S_, .f32⟩
  | .hbm, ⟨9, _⟩ => ⟨S4096x256, .f32⟩
  | .hbm, ⟨10, _⟩ => ⟨S_, .i32⟩
  | .hbm, ⟨11, _⟩ => ⟨S_, .f32⟩
  | .hbm, ⟨12, _⟩ => ⟨S256x256, .f32⟩
  | .hbm, ⟨13, _⟩ => ⟨S1x256, .f32⟩
  | .hbm, ⟨14, _⟩ => ⟨S_, .i32⟩
  | .hbm, ⟨15, _⟩ => ⟨S_, .f32⟩
  | .hbm, ⟨16, _⟩ => ⟨S1x256, .f32⟩
  | .hbm, ⟨17, _⟩ => ⟨S4096x4096, .bf16⟩
  | .hbm, ⟨18, _⟩ => ⟨S4096x256, .bf16⟩
  | .hbm, ⟨19, _⟩ => ⟨S256x256, .bf16⟩
  | .hbm, ⟨20, _⟩ => ⟨S4096x256, .bf16⟩
  | .hbm, ⟨21, _⟩ => ⟨S4096x256, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_c_2 : Ref sig .tc := ⟨.hbm, 14, rfl⟩
abbrev main_call3_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  pads_S4096x4096_S4096x4096_000_000 : S4096x4096.Pads (![0, 0] : Fin 2 → Nat) ![0, 0] ![0, 0] S4096x4096
  h_S_ : 0 < S_.numel
  pads_S4096x256_S4096x256_000_000 : S4096x256.Pads (![0, 0] : Fin 2 → Nat) ![0, 0] ![0, 0] S4096x256
  pads_S256x256_S256x256_000_000 : S256x256.Pads (![0, 0] : Fin 2 → Nat) ![0, 0] ![0, 0] S256x256
  shapeCasts_S256_S1x256 : S256.ShapeCasts S1x256
  pads_S1x256_S1x256_000_000 : S1x256.Pads (![0, 0] : Fin 2 → Nat) ![0, 0] ![0, 0] S1x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S256x256_S256x256_0_0 : (Rect.unit (s := S256x256) ![0, 0] S256x256.size inb_S256x256_S256x256_0_0).PackedRows (EltTy.packing .bf16)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .bf16 = 32 ∨ (Rect.block (s := S4096x256) S256x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x256.size a
  hwx0_2 : ∀ i : grid0.Coords, EltTy.bits .bf16 = 32 ∨ (Rect.block (s := S4096x256) S256x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S4096x4096.size a
  hwx1_0 : ∀ i : grid1.Coords, EltTy.bits .bf16 = 32 ∨ (Rect.block (s := S4096x4096) S256x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S4096x256.size a
  hwx1_1 : ∀ i : grid1.Coords, EltTy.bits .bf16 = 32 ∨ (Rect.block (s := S4096x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S4096x256.size a
  hwx1_3 : ∀ i : grid1.Coords, EltTy.bits .f32 = 32 ∨ (Rect.block (s := S4096x256) S256x256.size (cc1_transform_3 i) (hinb1_3 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_v6) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.Spec.lean ====
/-
  The function both programs compute, over the extended reals, index by index.

  With A : [4096, 4096], x : [4096, 256], W : [256, 256] and b : [256],
    xw[r, j]  = ∑ k < 256,  x[r, k] · W[k, j]
    gcn[r, j] = max ((∑ k < 4096, A[r, k] · xw[k, j]) + b[j]) 0.
  A change of float format is the identity on the extended reals, so the bf16 roundings of the
  two programs do not appear.  Sums are finite sums in the commutative monoid of the extended
  reals: regrouping them needs no finiteness of the inputs.
-/
import Idealize.ShloMosaic.PureOps.Ideal
import Idealize.ShloMosaic.Lib.ValueIdx

noncomputable section

namespace Cert.Spec

open Idealize.ShloMosaic Idealize.ShloMosaic.ValueIdx

abbrev SA : Shape := ⟨2, ![4096, 4096]⟩
abbrev SX : Shape := ⟨2, ![4096, 256]⟩
abbrev SW : Shape := ⟨2, ![256, 256]⟩
abbrev SB : Shape := ⟨1, ![256]⟩

/-- The feature product `x · W`: entry `(r, j)` is the sum over the 256 hidden channels. -/
def xw (x : SX.Idx → EReal) (w : SW.Idx → EReal) : SX.Idx → EReal :=
  fun i => ∑ k : Fin 256, x (ix2 (i 0) k) * w (ix2 k (i 1))

/-- The layer `relu (A · (x · W) + b)`: entry `(r, j)` sums over all 4096 nodes, adds the bias
    of channel `j` and clamps below at zero. -/
def gcn (a : SA.Idx → EReal) (x : SX.Idx → EReal) (w : SW.Idx → EReal) (b : SB.Idx → EReal) :
    SX.Idx → EReal :=
  fun i => max ((∑ k : Fin 4096, a (ix2 (i 0) k) * xw x w (ix2 k (i 1))) + b (ix1 (i 1))) 0

end Cert.Spec

end
-- ==== Proof.KValue.lean ====
/-
  What the kernel program leaves in its result array, at the extended reals.

  Region 0 writes `xw = x · W` block by block (4 row blocks of 1024 rows): point `t` stores the
  product of rows `1024 t … 1024 t + 1023` of `x` with the whole of `W`.  Region 1 writes the
  result in 16 row blocks of 256 rows: point `t` stores `max (A_t · xw + b) 0` for rows
  `256 t … 256 t + 255` of `A`, the whole of `xw` and the bias row.  Each block is the restriction of
  one whole-array function (`Cert.Spec.xw`, `Cert.Spec.gcn`) and the blocks tile the array.
-/
import proofs.«125898_g2000504869895307_pallasbulk_559_2_alg».proof.Proof.KRun
import proofs.«125898_g2000504869895307_pallasbulk_559_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.ValueIdx
open Cert.KernelIdeal Cert.KernelIdeal.Gen

/-! ## The two block products, entry by entry

Both kernels multiply a block of rows by a whole matrix on the matrix unit, into a zero accumulator.  The
contraction runs over the one shared axis: the operand entries of output entry `(p, q)` at contraction
position `k` are `(p, k)` on the left and `(k, q)` on the right. -/

/-- The zero offsets of a rank-two block, as the constant function. -/
theorem zeros2 : (![0, 0] : Fin 2 → Nat) = fun _ => 0 := funext fun a => by fin_cases a <;> rfl

/-- Left operand of the feature product, row axis: the output's row. -/
theorem featL_row (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl
/-- Left operand of the feature product, column axis: the contracted position. -/
theorem featL_col (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- Right operand of the feature product, row axis: the contracted position. -/
theorem featR_row (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- Right operand of the feature product, column axis: the output's column. -/
theorem featR_col (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- The feature kernel's stored block, at entry `(p, q)`: the product of row `p` of the row block with
    column `q` of the weights. The changes of float format are the identity on the extended reals. -/
theorem featBlock_apply (x0 : Vec Ideal S1024x256 .f32) (x1 : Vec Ideal S256x256 .f32) (p : Fin 1024) (q : Fin 256) :
    k0_pay1 (F := Ideal) x0 x1 (ix2 p q) = ∑ k : Fin 256, x0 (ix2 p k) * x1 (ix2 k q) := by
  unfold k0_pay1
  show FloatOps.matmul (F := Ideal) dot_S1024x256_S256x256_S1024x256_1_0_0_1_n_n none
    (truncf .bf16 x0 bitsLt_bf16_f32) (truncf .bf16 x1 bitsLt_bf16_f32) (constant S1024x256 .f32 0x00000000#32) (ix2 p q) = _
  rw [Ideal.matmul_constant_zero_apply,
    ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q)
      ((contrEquiv1 dot_S1024x256_S256x256_S1024x256_1_0_0_1_n_n 256 rfl rfl).symm k) = ix2 p k :=
    funext fun a => Fin.ext (by
      match a with
      | ⟨0, _⟩ => exact featL_row _ _
      | ⟨1, _⟩ => exact (featL_col _ _).trans hk)
  have er : dot_S1024x256_S256x256_S1024x256_1_0_0_1_n_n.rhsIdx (ix2 p q)
      ((contrEquiv1 dot_S1024x256_S256x256_S1024x256_1_0_0_1_n_n 256 rfl rfl).symm k) = ix2 k q :=
    funext fun a => Fin.ext (by
      match a with
      | ⟨0, _⟩ => exact (featR_row _ _).trans hk
      | ⟨1, _⟩ => exact featR_col _ _)
  rw [el, er]
  rfl

/-- Left operand of the aggregation product, row axis: the output's row. -/
theorem aggL_row (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide),
    dif_pos (show (0 : Fin S256x4096.rank) ∈ dot_S256x4096_S4096x256_S256x256_1_0_0_1_n_n.lhsNonContracting by decide)]
  rfl
/-- Left operand of the aggregation product, column axis: the contracted position. -/
theorem aggL_col (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
/-- Right operand of the aggregation product, row axis: the contracted position. -/
theorem aggR_row (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
/-- Right operand of the aggregation product, column axis: the output's column. -/
theorem aggR_col (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide),
    dif_pos (show (1 : Fin S4096x256.rank) ∈ dot_S256x4096_S4096x256_S256x256_1_0_0_1_n_n.rhsNonContracting by decide)]
  rfl

/-- The aggregation product into the zero accumulator, at entry `(p, q)`: row `p` of the block of the
    adjacency matrix against column `q` of the features, summed over all 4096 nodes. -/
theorem aggProd_apply (l : FVec Ideal S256x4096 .bf16) (r : FVec Ideal S4096x256 .bf16) (p q : Fin 256) :
    FloatOps.matmul (F := Ideal) dot_S256x4096_S4096x256_S256x256_1_0_0_1_n_n none l r
        (constant S256x256 .f32 0x00000000#32) (ix2 p q)
      = ∑ k : Fin 4096, l (ix2 p k) * r (ix2 k q) := by
  rw [Ideal.matmul_constant_zero_apply,
    ← Equiv.sum_comp (contrEquiv1 dot_S256x4096_S4096x256_S256x256_1_0_0_1_n_n 4096 rfl rfl).symm]
  refine Finset.sum_congr rfl fun k _ => ?_
  have hk := contrEquiv1_symm_val dot_S256x4096_S4096x256_S256x256_1_0_0_1_n_n 4096 rfl rfl k
  have el : dot_S256x4096_S4096x256_S256x256_1_0_0_1_n_n.lhsIdx (ix2 p q)
      ((contrEquiv1 dot_S256x4096_S4096x256_S256x256_1_0_0_1_n_n 4096 rfl rfl).symm k) = ix2 p k :=
    funext fun a => Fin.ext (by
      match a with
      | ⟨0, _⟩ => exact aggL_row _ _
      | ⟨1, _⟩ => exact (aggL_col _ _).trans hk)
  have er : dot_S256x4096_S4096x256_S256x256_1_0_0_1_n_n.rhsIdx (ix2 p q)
      ((contrEquiv1 dot_S256x4096_S4096x256_S256x256_1_0_0_1_n_n 4096 rfl rfl).symm k) = ix2 k q :=
    funext fun a => Fin.ext (by
      match a with
      | ⟨0, _⟩ => exact (aggR_row _ _).trans hk
      | ⟨1, _⟩ => exact aggR_col _ _)
  rw [el, er]

/-- The bias row copied down the 256 rows of a block reads, at `(p, q)`, the bias of column `q`. -/
theorem biasRows_apply (b : FVec Ideal S1x256 .f32) (p q : Fin 256) :
    broadcastTo S256x256 b broadcasts_S1x256_S256x256 (ix2 p q) = b (ix2 0 q) :=
  broadcastTo_apply b broadcasts_S1x256_S256x256 (ix2 p q) (ix2 0 q) fun a => by
    match a with
    | ⟨0, _⟩ => rfl
    | ⟨1, _⟩ => rfl

/-- The aggregation kernel's stored block, at entry `(p, q)`: the product entry plus the bias of column
    `q`, clamped below at zero. -/
theorem aggBlock_apply (x0 : Vec Ideal S256x4096 .f32) (x1 : Vec Ideal S4096x256 .bf16) (x2 : Vec Ideal S1x256 .f32)
    (p q : Fin 256) :
    k1_pay1 (F := Ideal) x0 x1 x2 (ix2 p q)
      = max ((∑ k : Fin 4096, x0 (ix2 p k) * x1 (ix2 k q)) + x2 (ix2 0 q)) 0 := by
  unfold k1_pay1
  show max (FloatOps.matmul (F := Ideal) dot_S256x4096_S4096x256_S256x256_1_0_0_1_n_n none
        (truncf .bf16 x0 bitsLt_bf16_f32) (shapeCast S4096x256 x1 shapeCasts_S4096x256_S4096x256)
        (constant S256x256 .f32 0x00000000#32) (ix2 p q)
      + broadcastTo S256x256 (shapeCast S1x256 x2 shapeCasts_S1x256_S1x256) broadcasts_S1x256_S256x256 (ix2 p q))
      (Ideal.ofBits .f32 0x00000000#32) = _
  rw [shapeCast_self, shapeCast_self, aggProd_apply, biasRows_apply, Ideal.ofBits_zero_f32]
  rfl

variable (m : (ℓ : Loc nD τ sig) → Buf (Elt Ideal) ℓ) (ρ : Dev nD → PrngReg)

/-! ## The feature region: four row blocks of `x · W`

Point `t` reads rows `1024 t … 1024 t + 1023` of `x` and the whole of `W`, and writes the same rows of the
product. -/

section Feature
variable (V : (c : Dev nD) → (b : Ref sig .tc) → Buf (Elt Ideal) ((c : Thread nD τ).loc b))

/-- Where the three windows of the feature region sit at point `t`: the rows of `x` and of the product move
    with the point, the weights stay. -/
theorem featIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A row block of the feature product is the restriction of `Cert.Spec.xw`: if `x0` holds rows
    `1024 b …` of `X` and `x1` is `W`, the stored block at `y` is `xw X W` at the array entry under `y`. -/
theorem featBlock_eq (X : S4096x256.Idx → EReal) (W : S256x256.Idx → EReal)
    (x0 : Vec Ideal S1024x256 .f32) (x1 : Vec Ideal S256x256 .f32) (b : ℕ)
    (h0 : ∀ (y : S1024x256.Idx) (i : S4096x256.Idx), (i 0).val = b * 1024 + (y 0).val → (i 1).val = (y 1).val → x0 y = X i)
    (h1 : x1 = W) (y : S1024x256.Idx) (i : S4096x256.Idx)
    (hi0 : (i 0).val = b * 1024 + (y 0).val) (hi1 : (i 1).val = (y 1).val) :
    k0_pay1 (F := Ideal) x0 x1 y = Cert.Spec.xw X W i := by
  obtain ⟨p, q, rfl⟩ : ∃ (p : Fin 1024) (q : Fin 256), y = ix2 p q := ⟨y 0, y 1, eq_ix2 y⟩
  obtain ⟨r, s, rfl⟩ : ∃ (r : Fin 4096) (s : Fin 256), i = ix2 r s := ⟨i 0, i 1, eq_ix2 i⟩
  obtain rfl : s = q := Fin.ext hi1
  rw [featBlock_apply]
  show _ = ∑ k : Fin 256, X (ix2 r k) * W (ix2 k s)
  refine Finset.sum_congr rfl fun k _ => ?_
  rw [h0 (ix2 p k) (ix2 r k) hi0 rfl, h1]

/-- The block of `x` at point `t` is rows `1024 t …` of the array the region finds. -/
theorem featRows_read (c : Dev nD) (t : Fin cfg0.N) (y : S1024x256.Idx) (i : S4096x256.Idx)
    (hi0 : (i 0).val = t.val * 1024 + (y 0).val) (hi1 : (i 1).val = (y 1).val) :
    (iblk0 V c 0 t : Vec Ideal S1024x256 .f32) y = (V c main_arg1 : S4096x256.Idx → EReal) i := by
  obtain ⟨e0, e1, -⟩ := featIdx t
  unfold iblk0
  rw [View.read_apply]
  show V c main_arg1 (((cfg0.win 0).blk t).view.emb y) = V c main_arg1 i
  congr 1
  funext a
  apply Fin.ext
  match a with
  | ⟨0, _⟩ => show win0_0.index t (0 : Fin 2) * 1024 + 1 * (y 0).val = (i 0).val; rw [e0, hi0]; omega
  | ⟨1, _⟩ => show win0_0.index t (1 : Fin 2) * 256 + 1 * (y 1).val = (i 1).val; rw [e1, hi1]; omega

/-- The block of the weights at every point is the whole weight matrix. -/
theorem featWeights_read (c : Dev nD) (t : Fin cfg0.N) :
    (iblk0 V c 1 t : Vec Ideal S256x256 .f32) = (V c main_arg2 : S256x256.Idx → EReal) := by
  obtain ⟨-, -, e0, e1, -⟩ := featIdx t
  funext y
  unfold iblk0
  rw [View.read_apply]
  show V c main_arg2 (((cfg0.win 1).blk t).view.emb y) = V c main_arg2 y
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- What point `t` writes back is its block of `xw` of the two arrays the region finds. -/
theorem featFlushed (c : Dev nD) (t : Fin cfg0.N) :
    (dat0 V c).flushed 2 t = ((cfg0.win 2).blk t).view.read (Elt Ideal)
      (Cert.Spec.xw (V c main_arg1) (V c main_arg2)) := by
  show (cfg0.win 2).cut (grid0.coords t) ((dat0 V c).after 2 t) = _
  rw [after0_2]
  unfold out0_2
  rw [View.canon_unit_zero zeros2]
  simp only [View.ld_unit_zero (S := S1024x256) zeros2, View.ld_unit_zero (S := S256x256) zeros2]
  obtain ⟨-, -, -, -, e0, e1⟩ := featIdx t
  funext j
  show k0_pay1 (F := Ideal) (iblk0 V c 0 t) (iblk0 V c 1 t) j
    = Cert.Spec.xw (V c main_arg1) (V c main_arg2) (((cfg0.win 2).blk t).view.emb j)
  refine featBlock_eq _ _ _ _ t.val (fun y i h0 h1 => featRows_read V c t y i h0 h1) (featWeights_read V c t) j _ ?_ ?_
  · show win0_2.index t (0 : Fin 2) * 1024 + 1 * (j 0).val = t.val * 1024 + (j 0).val; rw [e0]; omega
  · show win0_2.index t (1 : Fin 2) * 256 + 1 * (j 1).val = (j 1).val; rw [e1]; omega

/-- Row `r` of the product lies in the block of point `r / 1024`. -/
theorem featCover (i : S4096x256.Idx) :
    ∃ t : Fin cfg0.N, (cfg0.win 2).flush t = true ∧ i ∈ ((cfg0.win 2).blk t).view.set := by
  have hi0 : (i 0).val < 4096 := (i 0).isLt
  have hi1 : (i 1).val < 256 := (i 1).isLt
  have hN : cfg0.N = 4 := N_0
  obtain ⟨t, ht⟩ : ∃ t : Fin cfg0.N, t.val = (i 0).val / 1024 := ⟨⟨(i 0).val / 1024, by rw [hN]; omega⟩, rfl⟩
  obtain ⟨-, -, -, -, e0, e1⟩ := featIdx t
  refine ⟨t, flush0_2 t, ?_⟩
  show i ∈ ((View.whole main_v1).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e0, ht]; omega
  | ⟨1, _⟩ =>
    show win0_2.index t (1 : Fin 2) * 256 ≤ (i 1).val ∧ (i 1).val < win0_2.index t (1 : Fin 2) * 256 + 256
    rw [e1]; omega

/-- The feature region leaves `xw` of the two arrays it finds in its result array. -/
theorem featArr (c : Dev nD) :
    (dat0 V c).arrAt 2 cfg0.N = Cert.Spec.xw (V c main_arg1) (V c main_arg2) :=
  (dat0 V c).arrAt_eq_of_cover 2 (Cert.Spec.xw (V c main_arg1) (V c main_arg2))
    (fun t _ => featFlushed V c t) featCover

end Feature

/-! ## The aggregation region: sixteen row blocks of `max (A · h + b) 0`

Point `t` reads rows `256 t … 256 t + 255` of `A`, the whole feature array `h` and the bias row, and
writes the same rows of the result. -/

/-- One layer over given features `H` and a bias row `B`: entry `(r, j)` sums over all 4096 nodes, adds
    the bias of column `j` and clamps below at zero. -/
def layer (A : S4096x4096.Idx → EReal) (H : S4096x256.Idx → EReal) (B : S1x256.Idx → EReal) :
    S4096x256.Idx → EReal :=
  fun i => max ((∑ k : Fin 4096, A (ix2 (i 0) k) * H (ix2 k (i 1))) + B (ix2 (0 : Fin 1) (i 1))) 0

/-- With the feature product for `H` and the bias vector laid out as one row, the layer is the
    specification's function. -/
theorem layer_xw (a : S4096x4096.Idx → EReal) (x : S4096x256.Idx → EReal) (w : S256x256.Idx → EReal)
    (b : S256.Idx → EReal) :
    layer a (Cert.Spec.xw x w) (shapeCast S1x256 b shapeCasts_S256_S1x256) = Cert.Spec.gcn a x w b := by
  funext i
  obtain ⟨r, s, rfl⟩ : ∃ (r : Fin 4096) (s : Fin 256), i = ix2 r s := ⟨i 0, i 1, eq_ix2 i⟩
  show max ((∑ k : Fin 4096, a (ix2 r k) * Cert.Spec.xw x w (ix2 k s))
      + shapeCast S1x256 b shapeCasts_S256_S1x256 (ix2 (0 : Fin 1) s)) 0
    = max ((∑ k : Fin 4096, a (ix2 r k) * Cert.Spec.xw x w (ix2 k s)) + b (ix1 s)) 0
  rw [shapeCast_a_1a_apply]

section Aggregate
variable (V : (c : Dev nD) → (b : Ref sig .tc) → Buf (Elt Ideal) ((c : Thread nD τ).loc b))

/-- Where the four windows of the aggregation region sit at point `t`: the rows of `A` and of the result
    move with the point, the features and the bias row stay. -/
theorem aggIdx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A row block of the result is the restriction of `layer`: if `x0` holds rows `256 b …` of `A`, `x1`
    is `H` and `x2` is `B`, the stored block at `y` is `layer A H B` at the array entry under `y`. -/
theorem aggBlock_eq (A : S4096x4096.Idx → EReal) (H : S4096x256.Idx → EReal) (B : S1x256.Idx → EReal)
    (x0 : Vec Ideal S256x4096 .f32) (x1 : Vec Ideal S4096x256 .bf16) (x2 : Vec Ideal S1x256 .f32) (b : ℕ)
    (h0 : ∀ (y : S256x4096.Idx) (i : S4096x4096.Idx), (i 0).val = b * 256 + (y 0).val → (i 1).val = (y 1).val → x0 y = A i)
    (h1 : x1 = H) (h2 : x2 = B) (y : S256x256.Idx) (i : S4096x256.Idx)
    (hi0 : (i 0).val = b * 256 + (y 0).val) (hi1 : (i 1).val = (y 1).val) :
    k1_pay1 (F := Ideal) x0 x1 x2 y = layer A H B i := by
  obtain ⟨p, q, rfl⟩ : ∃ (p : Fin 256) (q : Fin 256), y = ix2 p q := ⟨y 0, y 1, eq_ix2 y⟩
  obtain ⟨r, s, rfl⟩ : ∃ (r : Fin 4096) (s : Fin 256), i = ix2 r s := ⟨i 0, i 1, eq_ix2 i⟩
  obtain rfl : s = q := Fin.ext hi1
  rw [aggBlock_apply, h1, h2]
  show _ = max ((∑ k : Fin 4096, A (ix2 r k) * H (ix2 k s)) + B (ix2 (0 : Fin 1) s)) 0
  refine congrArg (fun z => max (z + B (ix2 (0 : Fin 1) s)) 0) (Finset.sum_congr rfl fun k _ => ?_)
  rw [h0 (ix2 p k) (ix2 r k) hi0 rfl]

/-- The block of `A` at point `t` is rows `256 t …` of the array the region finds. -/
theorem aggRows_read (c : Dev nD) (t : Fin cfg1.N) (y : S256x4096.Idx) (i : S4096x4096.Idx)
    (hi0 : (i 0).val = t.val * 256 + (y 0).val) (hi1 : (i 1).val = (y 1).val) :
    (iblk1 V c 0 t : Vec Ideal S256x4096 .f32) y = (V c main_arg0 : S4096x4096.Idx → EReal) i := by
  obtain ⟨e0, e1, -⟩ := aggIdx t
  unfold iblk1
  rw [View.read_apply]
  show V c main_arg0 (((cfg1.win 0).blk t).view.emb y) = V c main_arg0 i
  congr 1
  funext a
  apply Fin.ext
  match a with
  | ⟨0, _⟩ => show win1_0.index t (0 : Fin 2) * 256 + 1 * (y 0).val = (i 0).val; rw [e0, hi0]; omega
  | ⟨1, _⟩ => show win1_0.index t (1 : Fin 2) * 4096 + 1 * (y 1).val = (i 1).val; rw [e1, hi1]; omega

/-- The block of the features at every point is the whole feature array. -/
theorem aggFeat_read (c : Dev nD) (t : Fin cfg1.N) :
    (iblk1 V c 1 t : Vec Ideal S4096x256 .bf16) = (V c main_v1 : S4096x256.Idx → EReal) := by
  obtain ⟨-, -, e0, e1, -⟩ := aggIdx t
  funext y
  unfold iblk1
  rw [View.read_apply]
  show V c main_v1 (((cfg1.win 1).blk t).view.emb y) = V c main_v1 y
  congr 1
  funext a
  apply Fin.ext
  match a with
  | ⟨0, _⟩ => show win1_1.index t (0 : Fin 2) * 4096 + 1 * (y 0).val = (y 0).val; rw [e0]; omega
  | ⟨1, _⟩ => show win1_1.index t (1 : Fin 2) * 256 + 1 * (y 1).val = (y 1).val; rw [e1]; omega

/-- The block of the bias at every point is the whole bias row. -/
theorem aggBias_read (c : Dev nD) (t : Fin cfg1.N) :
    (iblk1 V c 2 t : Vec Ideal S1x256 .f32) = (V c main_v0 : S1x256.Idx → EReal) := by
  obtain ⟨-, -, -, -, e0, e1, -⟩ := aggIdx t
  funext y
  unfold iblk1
  rw [View.read_apply]
  show V c main_v0 (((cfg1.win 2).blk t).view.emb y) = V c main_v0 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-- What point `t` writes back is its block of `layer` of the three arrays the region finds. -/
theorem aggFlushed (c : Dev nD) (t : Fin cfg1.N) :
    (dat1 V c).flushed 3 t = ((cfg1.win 3).blk t).view.read (Elt Ideal)
      (layer (V c main_arg0) (V c main_v1) (V c main_v0)) := by
  show (cfg1.win 3).cut (grid1.coords t) ((dat1 V c).after 3 t) = _
  rw [after1_3]
  unfold out1_3
  rw [View.canon_unit_zero zeros2]
  simp only [View.ld_unit_zero (S := S256x4096) zeros2, View.ld_unit_zero (S := S4096x256) zeros2,
    View.ld_unit_zero (S := S1x256) zeros2]
  obtain ⟨-, -, -, -, -, -, e0, e1⟩ := aggIdx t
  funext j
  show k1_pay1 (F := Ideal) (iblk1 V c 0 t) (iblk1 V c 1 t) (iblk1 V c 2 t) j
    = layer (V c main_arg0) (V c main_v1) (V c main_v0) (((cfg1.win 3).blk t).view.emb j)
  refine aggBlock_eq _ _ _ _ _ _ t.val (fun y i h0 h1 => aggRows_read V c t y i h0 h1)
    (aggFeat_read V c t) (aggBias_read V c t) j _ ?_ ?_
  · show win1_3.index t (0 : Fin 2) * 256 + 1 * (j 0).val = t.val * 256 + (j 0).val; rw [e0]; omega
  · show win1_3.index t (1 : Fin 2) * 256 + 1 * (j 1).val = (j 1).val; rw [e1]; omega

/-- Row `r` of the result lies in the block of point `r / 256`. -/
theorem aggCover (i : S4096x256.Idx) :
    ∃ t : Fin cfg1.N, (cfg1.win 3).flush t = true ∧ i ∈ ((cfg1.win 3).blk t).view.set := by
  have hi0 : (i 0).val < 4096 := (i 0).isLt
  have hi1 : (i 1).val < 256 := (i 1).isLt
  have hN : cfg1.N = 16 := N_1
  obtain ⟨t, ht⟩ : ∃ t : Fin cfg1.N, t.val = (i 0).val / 256 := ⟨⟨(i 0).val / 256, by rw [hN]; omega⟩, rfl⟩
  obtain ⟨-, -, -, -, -, -, e0, e1⟩ := aggIdx t
  refine ⟨t, flush1_3 t, ?_⟩
  show i ∈ ((View.whole main_v2).slice (win1_3.rect t)).set
  rw [View.set_slice_whole, Rect.mem_set_unit]
  intro a
  match a with
  | ⟨0, _⟩ =>
    show win1_3.index t (0 : Fin 2) * 256 ≤ (i 0).val ∧ (i 0).val < win1_3.index t (0 : Fin 2) * 256 + 256
    rw [e0, ht]; omega
  | ⟨1, _⟩ =>
    show win1_3.index t (1 : Fin 2) * 256 ≤ (i 1).val ∧ (i 1).val < win1_3.index t (1 : Fin 2) * 256 + 256
    rw [e1]; omega

/-- The aggregation region leaves `layer` of the three arrays it finds in its result array. -/
theorem aggArr (c : Dev nD) :
    (dat1 V c).arrAt 3 cfg1.N = layer (V c main_arg0) (V c main_v1) (V c main_v0) :=
  (dat1 V c).arrAt_eq_of_cover 3 (layer (V c main_arg0) (V c main_v1) (V c main_v0))
    (fun t _ => aggFlushed V c t) aggCover

end Aggregate

/-! ## What each region finds, and the result array

The one host operation before the regions lays the bias vector out as a row; nothing else is written
before the feature region, and only the product array between the two regions. -/

/-- The feature region finds `x` as launched. -/
theorem found_x (c : Dev nD) : V1 m ρ c main_arg1 = m ((c : Thread nD τ).loc main_arg1) := by
  show StableHlo.after hostOps0 (W0 m ρ c) (Proc.devRef .tc main_arg1) = W0 m ρ c (Proc.devRef .tc main_arg1)
  dsimp only [hostOps0]
  after_results

/-- The feature region finds the weights as launched. -/
theorem found_w (c : Dev nD) : V1 m ρ c main_arg2 = m ((c : Thread nD τ).loc main_arg2) := by
  show StableHlo.after hostOps0 (W0 m ρ c) (Proc.devRef .tc main_arg2) = W0 m ρ c (Proc.devRef .tc main_arg2)
  dsimp only [hostOps0]
  after_results

/-- The aggregation region finds `A` as launched. -/
theorem found_adj (c : Dev nD) : V2 m ρ c main_arg0 = m ((c : Thread nD τ).loc main_arg0) := by
  refine (W2_of_ne m ρ c main_arg0 (by decide)).trans ?_
  show StableHlo.after hostOps0 (W0 m ρ c) (Proc.devRef .tc main_arg0) = W0 m ρ c (Proc.devRef .tc main_arg0)
  dsimp only [hostOps0]
  after_results

/-- The aggregation region finds the bias vector laid out as one row. -/
theorem found_bias (c : Dev nD) :
    (V2 m ρ c main_v0 : S1x256.Idx → EReal)
      = shapeCast S1x256 (m ((c : Thread nD τ).loc main_arg3) : S256.Idx → EReal) shapeCasts_S256_S1x256 := by
  refine (W2_of_ne m ρ c main_v0 (by decide)).trans ?_
  show StableHlo.after hostOps0 (W0 m ρ c) (Proc.devRef .tc main_v0) = _
  dsimp only [hostOps0]
  after_results
  rfl

/-- The aggregation region finds the feature product of the launched `x` and weights. -/
theorem found_feat (c : Dev nD) :
    V2 m ρ c main_v1
      = Cert.Spec.xw (m ((c : Thread nD τ).loc main_arg1)) (m ((c : Thread nD τ).loc main_arg2)) :=
  (W2_arr m ρ c 2).trans ((featArr (V1 m ρ) c).trans
    (congrArg₂ Cert.Spec.xw (found_x m ρ c) (found_w m ρ c)))

/-- The last boundary's contents of the result buffer are the layer's function of the launch contents
    of the four argument arrays. -/
theorem W3_main_v2 (c : Dev nD) :
    (W3 (F := Ideal) m ρ c (Proc.devRef .tc main_v2) : Buf (Elt Ideal) ((c : Thread nD τ).loc main_v2))
      = Cert.Spec.gcn (m ((c : Thread nD τ).loc main_arg0)) (m ((c : Thread nD τ).loc main_arg1))
          (m ((c : Thread nD τ).loc main_arg2)) (m ((c : Thread nD τ).loc main_arg3)) := by
  refine (W3_arr m ρ c 3).trans ((aggArr (V2 m ρ) c).trans ?_)
  rw [found_adj m ρ c, found_feat m ρ c, found_bias m ρ c]
  exact layer_xw _ _ _ _

/-- The kernel program's run with its result named: every weakly fair execution terminates, the result
    array holds the layer's function of the arguments and the arguments are unchanged. -/
theorem run_value : θ_run (defs (F := Ideal)) (onTc (τ := τ) (main (F := Ideal))) ⟨m, fun _ => 0, ρ⟩ (fun r => ∀ c : Dev nD,
      r.2.mem ((c.tc : Thread nD τ).loc main_v2)
        = Cert.Spec.gcn (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩)
    (Cert.KernelIdeal.Run.run_all (F := Ideal) m ρ)

end Cert.KernelIdeal.Val

end
-- ==== Proof.RefReg0.lean ====
import proofs.«125898_g2000504869895307_pallasbulk_559_2_alg».proof.Proof.Gen.ReferenceIdeal.Launch
import proofs.«125898_g2000504869895307_pallasbulk_559_2_alg».proof.Proof.Gen.ReferenceIdeal.Skeleton
import proofs.«125898_g2000504869895307_pallasbulk_559_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! # Region 0 of the reference (the feature product, one 256-row block per grid point), at the
    contents `V` the region is entered from

The body loads its two input blocks whole, multiplies them into a zero accumulator, narrows the
product and stores it whole into the output block: what the output's staging buffer holds after the
body is one store's payload over the two loaded blocks. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle every access of the body uses: the whole 256 × 256 block. -/
abbrev r0 : Rect S256x256 := Rect.unit (s := S256x256) ![0, 0] S256x256.size inb_S256x256_S256x256_0_0

/-- The output block after the body, from the two input blocks: the single store's payload. -/
def out0_2 (x0 : Vec F S256x256 .bf16) (x1 : Vec F S256x256 .bf16) : Vec F S256x256 .bf16 :=
  View.canon [⟨r0, k0_pay1 (View.ld x0 r0) (View.ld x1 r0)⟩]

/-- The store covers the block. -/
theorem cover0_2 (p0 : Vec F S256x256 .bf16) (y : S256x256.Idx) :
    ∃ pc ∈ ([⟨r0, p0⟩] : List (View.Piece (Elt F) S256x256 .bf16)), y ∈ pc.1.set :=
  View.cover_of_tiled [⟨r0, p0⟩] S256x256.size (by rfl) y

set_option maxHeartbeats 1000000 in
/-- The body on whole staging memrefs, the inputs at given contents and the output at anything, runs to the
    continuation with the inputs as they were and the output at `out0_2` of them. -/
theorem sound_kernel0 (c : Dev nD) (E : Set ℕ) (i : grid0.Coords) (arg1 : Memref sig .tc .vmem S256x256 .bf16) (harg1 : arg1.IsWhole) (arg2 : Memref sig .tc .vmem S256x256 .bf16) (harg2 : arg2.IsWhole) (arg3 : Memref sig .tc .vmem S256x256 .bf16) (harg3 : arg3.IsWhole)
    (x0 : Vec F S256x256 .bf16) (x1 : Vec F S256x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Region 0's proof data on core `c`: the arrays as found; after the body each input's buffer at its block
    and the output's at `out0_2` of the input blocks; the scoped rest and the generator register untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Reg0

end
-- ==== Proof.RefReg1.lean ====
import proofs.«125898_g2000504869895307_pallasbulk_559_2_alg».proof.Proof.Gen.ReferenceIdeal.Launch
import proofs.«125898_g2000504869895307_pallasbulk_559_2_alg».proof.Proof.Gen.ReferenceIdeal.Skeleton
import proofs.«125898_g2000504869895307_pallasbulk_559_2_alg».proof.Proof.Gen.ReferenceIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! # Region 1 of the reference (the aggregation, a 16 × 16 grid: row block `i`, reduction block `k`),
    at the contents `V` the region is entered from

The body keeps a 256 × 256 accumulator in a scratch buffer across the 16 points of a row block:
at `k = 0` it zeroes it, at every point it adds the product of the point's block of `A` with the
point's block of `xw`, and at `k = 15` it adds the bias row, clamps below at zero and stores the
result into the output block, which is written back at those points only. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditionals, over the grid -/

/-- "This is the first reduction step of its row block" (`k = 0`), as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "This is the last reduction step of its row block" (`k = 15`). -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The inputs are never idle; the output is idle, and not written back, exactly off the last reduction step. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## What one point leaves, as pure terms over the blocks it reads -/

/-- The accumulator after the first reduction step: zero plus the product of the two blocks. -/
def accStep0 (x0 x1 : Vec F S256x256 .bf16) : Vec F S256x256 .f32 := k1_pay2 (k1_pay1 (F := F)) x0 x1
/-- The accumulator after a later step: what the step before left plus the product of the two blocks. -/
def accStep (xs : Vec F S256x256 .f32) (x0 x1 : Vec F S256x256 .bf16) : Vec F S256x256 .f32 := k1_pay2 xs x0 x1
/-- The output block at the last step: the accumulator plus the bias row, clamped below at zero. -/
def outStep (acc : Vec F S256x256 .f32) (x2 : Vec F S1x256 .f32) : Vec F S256x256 .f32 := k1_pay3 acc x2

/-! ## The body on whole staging memrefs, case by case -/

theorem hz : (![0, 0] : Fin 2 → Nat) = fun _ => 0 := funext fun a => by fin_cases a <;> rfl

/-- The whole 256 × 256 rectangle, the one every accumulator access uses. -/
abbrev r1 : Rect S256x256 := Rect.unit (s := S256x256) ![0, 0] S256x256.size inb_S256x256_S256x256_0_0

set_option maxHeartbeats 1000000 in
/-- FIRST reduction step (`k = 0`): the accumulator, found at anything, is zeroed and then holds zero plus the
    product of the two blocks; the output's buffer and the bias are handed back untouched. -/
theorem sound_A (c : Dev nD) (E : Set ℕ) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole)
    (hc0 : cond1_0 i) (hc1 : ¬cond1_1 i)
    (x0 x1 : Vec F S256x256 .bf16) (x2 : Vec F S1x256 .f32) (xi : Vec F S256x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (accStep0 x0 x1)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  sl_unfold_run_names
  rw [View.read_writes_eq_canon _ _ _ (fun y => ⟨_, List.mem_cons_self .., View.mem_set_unit_zero hz inb_S256x256_S256x256_0_0 y⟩), View.canon_cons_unit_zero hz]
  unfold accStep0
  simp only [View.readAt_eq_ld, harg2.read_unread, harg3.read_unread, View.ld_unit_zero (S := S256x256) hz, View.readCov_unit_zero (S := S256x256) _ hz]

set_option maxHeartbeats 1000000 in
/-- A MIDDLE reduction step: the accumulator, found at `xs`, ends at `xs` plus the product of the two blocks. -/
theorem sound_B (c : Dev nD) (E : Set ℕ) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole)
    (hc0 : ¬cond1_0 i) (hc1 : ¬cond1_1 i)
    (x0 x1 : Vec F S256x256 .bf16) (x2 : Vec F S1x256 .f32) (xi xs : Vec F S256x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (accStep xs x0 x1)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  sl_unfold_run_names
  rw [View.read_writes_eq_canon _ _ _ (fun y => ⟨_, List.mem_cons_self .., View.mem_set_unit_zero hz inb_S256x256_S256x256_0_0 y⟩), View.canon_cons_unit_zero hz]
  unfold accStep
  simp only [View.readAt_eq_ld, harg2.read_unread, harg3.read_unread, harg6.read_unread, View.ld_unit_zero (S := S256x256) hz]

set_option maxHeartbeats 1000000 in
/-- The LAST reduction step (`k = 15`): the accumulator, found at `xs`, ends at `xs` plus the product, and the
    output's buffer, found at anything, ends at that sum plus the bias row clamped below at zero. -/
theorem sound_C (c : Dev nD) (E : Set ℕ) (i : grid1.Coords) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole)
    (hc0 : ¬cond1_0 i) (hc1 : cond1_1 i)
    (x0 x1 : Vec F S256x256 .bf16) (x2 : Vec F S1x256 .f32) (xs : Vec F S256x256 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (outStep (accStep xs x0 x1) x2) ∗ owns (c : Thread nD τ) arg6 fullShare (accStep xs x0 x1)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (fun y => ⟨_, List.mem_cons_self .., View.mem_set_unit_zero hz inb_S256x256_S256x256_0_0 y⟩), View.canon_cons_unit_zero hz]
    unfold outStep accStep
    simp only [View.readAt_eq_ld, harg2.read_unread, harg3.read_unread, harg4.read_unread, harg6.read_unread, View.ld_unit_zero (S := S256x256) hz, View.ld_unit_zero (S := S1x256) hz, View.readCov_unit_zero (S := S256x256) _ hz]
  iexists _; isplitr
  swap; · iexact H4
  ipureintro
  sl_unfold_run_names
  rw [View.read_writes_eq_canon _ _ _ (fun y => ⟨_, List.mem_cons_self .., View.mem_set_unit_zero hz inb_S256x256_S256x256_0_0 y⟩), View.canon_cons_unit_zero hz]
  unfold accStep
  simp only [View.readAt_eq_ld, harg2.read_unread, harg3.read_unread, harg6.read_unread, View.ld_unit_zero (S := S256x256) hz]

/-! ## The accumulator point by point -/

/-- The scratch accumulator after the body at position `n`, by recursion on the point: reset at the
    first step of each row block (`n ≡ 0 mod 16`), else the step before's contents plus this point's product. -/
def accAt (c : Dev nD) : (n : ℕ) → n < cfg1.N → Vec F S256x256 .f32
  | 0, hn => accStep0 (iblk1 V c 0 ⟨0, hn⟩) (iblk1 V c 1 ⟨0, hn⟩)
  | n + 1, hn =>
    if (n + 1) % 16 = 0 then accStep0 (iblk1 V c 0 ⟨n + 1, hn⟩) (iblk1 V c 1 ⟨n + 1, hn⟩)
    else accStep (accAt c n (Nat.lt_of_succ_lt hn)) (iblk1 V c 0 ⟨n + 1, hn⟩) (iblk1 V c 1 ⟨n + 1, hn⟩)

theorem accAt_reset (c : Dev nD) (t : Fin cfg1.N) (h : t.val % 16 = 0) :
    accAt V c t.val t.isLt = accStep0 (iblk1 V c 0 t) (iblk1 V c 1 t) := by
  obtain ⟨n, hn⟩ := t
  cases n with
  | zero => rfl
  | succ n => exact (if_pos h)

theorem accAt_step (c : Dev nD) (t : Fin cfg1.N) (h : ¬t.val % 16 = 0) :
    accAt V c t.val t.isLt = accStep (accAt V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact (if_neg h)

/-- The output's staging buffer after the body at point `t` (read only at the last step of a row block). -/
def outAt (c : Dev nD) (t : Fin cfg1.N) : Vec F S256x256 .f32 :=
  outStep (accAt V c t.val t.isLt) (iblk1 V c 2 t)

/-! ## The invariant: the scoped buffers of the other region at anything, the accumulator at `accAt` -/

/-- The accumulator's scratch buffer, whole. -/
abbrev scM : Memref sig .tc .vmem S256x256 .f32 := Memref.whole cc1_scratch0

/-- Region 0's five staging buffers, each whole at some contents (scoped buffers this region never touches),
    beside what is said of the accumulator's buffer. -/
def Sc (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P)

/-- The class invariant spelt out: region 0's staging buffers, the accumulator at some contents, the generator register. -/
theorem PhiA1_eq (c : Dev nD) :
    (Pipeline.ΦA spec1 c : sProp 𝕄)
      = iprop(Sc (F := F) c iprop(∃ d, owns (c : Thread nD τ) scM fullShare d) ∗ (∃ r, prngReg c r)) := by
  unfold Pipeline.ΦA Sc; rw [scopedRest1_eq]; simp only [scM, owns_whole]; try rfl

/-- The invariant before position `n`: before the first point the class's; afterwards the accumulator at what
    the point before left. -/
def PhiS (c : Dev nD) : (n : ℕ) → n ≤ cfg1.N → sProp 𝕄
  | 0, _ => Pipeline.ΦA spec1 c
  | n + 1, hn => iprop(Sc (F := F) c (owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(Sc (F := F) c (owns (c : Thread nD τ) scM fullShare (accAt V c n hn)) ∗ (∃ r, prngReg c r)) := rfl
theorem PhiS_pos (c : Dev nD) (n : ℕ) (h : n ≤ cfg1.N) (hz : n ≠ 0) :
    PhiS V c n h = iprop(Sc (F := F) c (owns (c : Thread nD τ) scM fullShare (accAt V c (n - 1) (by omega))) ∗ (∃ r, prngReg c r)) := by
  cases n with
  | zero => exact absurd rfl hz
  | succ n => rfl

/-! ## The proof data -/

/-- Region 1's proof data on core `c`: the arrays as found; after the body each input's buffer at its block and
    the output's at `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

theorem PhiS_castSucc (c : Dev nD) (t : Fin cfg1.N) :
    (dat1 V c).Φ t.castSucc = PhiS V c t.val (Nat.le_of_lt t.isLt) := by
  dsimp only [dat1]; simp only [Fin.coe_castSucc]

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_eq]
  unfold Sc
  iintro ⟨⟨Ha, Hb, Hc, Hd, He, HS⟩, Hg⟩
  isplitl [Ha Hb Hc Hd He HS]
  · isplitl [Ha]; · iexact Ha
    isplitl [Hb]; · iexact Hb
    isplitl [Hc]; · iexact Hc
    isplitl [Hd]; · iexact Hd
    isplitl [He]; · iexact He
    iexists _; iexact HS
  iexact Hg

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the output's buffer as found at the points where the body stores nothing into it. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the two closed forms say which of the three
    cases the point is in; the invariant hands the body the accumulator at what the point before left (at
    anything before the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt (show cfg1.N = 256 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 16 = 0
  · have h1 : ¬t.val % 16 = 15 := by omega
    rw [Dat.leavesExact_idle (dat1 V c) 3 t (idleAt1_3 t (fun h => h1 ((hcond1_1 t).mp h))) (noFlush1_3 t (fun h => h1 ((hcond1_1 t).mp h)))]
    rw [accAt_reset V c t h0]
    by_cases hz : t.val = 0
    · rw [PhiS_castSucc V c t, PhiS_zero V c _ _ hz, PhiA1_eq]
      unfold Sc
      iintro ⟨⟨⟨Ha, Hb, Hc, Hd, He, ⟨%ds, HS⟩⟩, Hg⟩, Ho, ⟨%d0, H0⟩, ⟨%d1, H1⟩, ⟨%d2, H2⟩, ⟨%d3, H3⟩⟩
      iapply (sound_A c Set.univ (grid1.coords t) _ _ _ _ _ _ _ _ scM (Memref.isWhole_whole _) ((hcond1_0 t).mpr h0) (fun h => h1 ((hcond1_1 t).mp h)) (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold Sc
      iintro ⟨⟨⟨Ha, Hb, Hc, Hd, He, HS⟩, Hg⟩, Ho, ⟨%d0, H0⟩, ⟨%d1, H1⟩, ⟨%d2, H2⟩, ⟨%d3, H3⟩⟩
      iapply (sound_A c Set.univ (grid1.coords t) _ _ _ _ _ _ _ _ scM (Memref.isWhole_whole _) ((hcond1_0 t).mpr h0) (fun h => h1 ((hcond1_1 t).mp h)) (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 16 = 15
    · rw [show (dat1 V c).leavesExact 3 t = owns (c : Thread nD τ) (st1_3 t) fullShare ((dat1 V c).after 3 t) from by
        unfold Dat.leavesExact; rw [liveAt1_3 t ((hcond1_1 t).mpr h1)], after1_3]
      unfold outAt
      rw [accAt_step V c t h0]
      rw [PhiS_castSucc V c t, PhiS_pos V c _ _ hz]
      unfold Sc
      iintro ⟨⟨⟨Ha, Hb, Hc, Hd, He, HS⟩, Hg⟩, Ho, ⟨%d0, H0⟩, ⟨%d1, H1⟩, ⟨%d2, H2⟩, ⟨%d3, H3⟩⟩
      iapply (sound_C c Set.univ (grid1.coords t) _ _ _ _ _ _ _ _ scM (Memref.isWhole_whole _) (fun h => h0 ((hcond1_0 t).mp h)) ((hcond1_1 t).mpr h1) (iblk1 V c 0 t) (iblk1 V c 1 t) (iblk1 V c 2 t) (accAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      rw [accAt_step V c t h0]
      rw [PhiS_castSucc V c t, PhiS_pos V c _ _ hz]
      unfold Sc
      iintro ⟨⟨⟨Ha, Hb, Hc, Hd, He, HS⟩, Hg⟩, Ho, ⟨%d0, H0⟩, ⟨%d1, H1⟩, ⟨%d2, H2⟩, ⟨%d3, H3⟩⟩
      iapply (sound_B c Set.univ (grid1.coords t) _ _ _ _ _ _ _ _ scM (Memref.isWhole_whole _) (fun h => h0 ((hcond1_0 t).mp h)) (fun h => h1 ((hcond1_1 t).mp h)) (iblk1 V c 0 t) (iblk1 V c 1 t) (iblk1 V c 2 t) ((dat1 V c).before 3 t d3) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      iexists _; iexact H3

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.ReferenceIdeal.Reg1

end
-- ==== Proof.RefData.lean ====
import proofs.«125898_g2000504869895307_pallasbulk_559_2_alg».proof.Proof.RefReg0
import proofs.«125898_g2000504869895307_pallasbulk_559_2_alg».proof.Proof.RefReg1
import proofs.«125898_g2000504869895307_pallasbulk_559_2_alg».proof.Proof.Gen.ReferenceIdeal.Regions

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen Cert.ReferenceIdeal.Reg0 Cert.ReferenceIdeal.Reg1

variable {F : FTy → Type} [FloatOps F]

local notation "𝕄" => MT nD τ sig Unit (Elt F) ℕ (UR sig nD τ) ℕ

/-! # What the two regions of the reference leave, named

The host prefix (four zero-width pads, the bias reshape, three narrowing conversions) takes the launch
memory to the contents region 0 is entered from; region 0 changes only its output array, which then
holds what its sixteen write-backs leave; region 1 is entered from that and changes only its own
output array. -/

variable (m : (ℓ : Loc nD τ sig) → Buf (Elt F) ℓ)

/-- The contents region 0 is entered from, read at a reference. -/
abbrev VA (c : Dev nD) (b : Ref sig .tc) : Buf (Elt F) ((c : Thread nD τ).loc b) := V9 m c b

/-- What region 0 leaves in its output array: its sixteen blocks written back in order. -/
def X8 (c : Dev nD) : Buf (Elt F) ((c : Thread nD τ).loc main_v8) := (dat0 (VA m) c).arrAt 2 cfg0.N

/-- The contents region 1 is entered from: as region 0 was entered, its output array at `X8`. -/
def VB0 (c : Dev nD) : Valuation τ sig (Elt F) := Function.update (V9 m c) main_v8 (X8 m c)
/-- The same read at a reference. -/
abbrev VB (c : Dev nD) (b : Ref sig .tc) : Buf (Elt F) ((c : Thread nD τ).loc b) := VB0 m c b

/-- What region 1 leaves in its output array: a block written back at the last reduction step of each row block. -/
def X9 (c : Dev nD) : Buf (Elt F) ((c : Thread nD τ).loc main_v9) := (dat1 (VB m) c).arrAt 3 cfg1.N

/-- The last boundary's contents: as region 1 was entered, its output array at `X9`. -/
def VC0 (c : Dev nD) : Valuation τ sig (Elt F) := Function.update (VB0 m c) main_v9 (X9 m c)

/-- The regions' results, in the form the conditional frame takes them: after region 0 the contents `VB0`,
    after region 1 the contents `VC0`. -/
def outs : Outs (F := F) := fun J r c => if J = 10 then VB0 m c r else VC0 m c r

theorem V10_eq (c : Dev nD) : V10 m (outs m) c = VB0 m c := by
  show Function.update (V9 m c) main_v8 (outs m 10 main_v8 c) = Function.update (V9 m c) main_v8 (X8 m c)
  have h : outs m 10 main_v8 c = X8 m c := by
    unfold outs; rw [if_pos rfl]; unfold VB0; exact Function.update_self ..
  rw [h]

theorem V11_eq (c : Dev nD) : V11 m (outs m) c = VC0 m c := by
  show Function.update (V10 m (outs m) c) main_v9 (outs m 11 main_v9 c) = Function.update (VB0 m c) main_v9 (X9 m c)
  have h : outs m 11 main_v9 c = X9 m c := by
    unfold outs; rw [if_neg (by decide)]; unfold VC0; exact Function.update_self ..
  rw [h, V10_eq]

/-- The result buffer's final contents are what region 1 left in it. -/
theorem V11_main_v9 (c : Dev nD) : V11 m (outs m) c main_v9 = X9 m c := by
  rw [V11_eq]; unfold VC0; exact Function.update_self ..

end Cert.ReferenceIdeal.Run

end
-- ==== Proof.RefCond.lean ====
/-
  The reference's launch with the final contents of every unscoped buffer kept.

  Given, per kernel region, a segment record entered from the thread state before it and left at the one after
  it, every weakly fair execution of @main terminates and each unscoped buffer of each core ends at the last
  boundary's contents: the launch memory pushed through the nine host stretches, each region changing only its
  own output array.  The frame claim projects this to the four argument arrays; the value claim reads the
  result array off it.
-/
import proofs.«125898_g2000504869895307_pallasbulk_559_2_alg».proof.Proof.Gen.ReferenceIdeal.Regions

noncomputable section

namespace Cert.ReferenceIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.ReferenceIdeal Cert.ReferenceIdeal.Gen

variable {F : FTy → Type} [FloatOps F]

variable (m : (ℓ : Loc nD τ sig) → Buf (Elt F) ℓ)

set_option backward.isDefEq.respectTransparency.types false in
/-- THE CONDITIONAL RUN. As the conditional frame, with the post kept at every unscoped buffer's final contents: given,
    per region, a segment record entered from this module's thread state before it and left at the one after it, every
    weakly fair execution of @main from memory `m` with zero counters terminates and every final memory holds each
    unscoped buffer of each core at the last boundary's contents `V11 m outs c`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V9 m c) ∗ E 0 c) ⊢ R0.pre c)
    (hpost0 : ∀ c : Dev nD, R0.post c ⊢ iprop(StableHlo.held (c : Thread nD τ) (Pipeline.ucRefs τ sig) (V10 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V10 m outs c) ∗ E 1 c) ⊢ R1.pre c)
    (hpost1 : ∀ c : Dev nD, R1.post c ⊢ iprop(StableHlo.held (c : Thread nD τ) (Pipeline.ucRefs τ sig) (V11 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V11 m outs c b) := by
  refine Pipeline.θ_run_regions_kit_dev (pcfgs (F := F)) adm pdats ι cellOf_inj EP defs₀ 𝒱₀ L lv m ρ main
    (segs m 𝒱₀ L lv E ι pdats R0 R1)
    (fun c Q => by
      rewrite [main_chain c, Seg.run_eq_chain,
        show (segs m 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, .rfl, .rfl, .rfl, .rfl, .rfl, .rfl, .rfl, .rfl, hpre0 c, (hpost0 c).trans (hpre1 c), (hpost1 c).trans (sep_mono .rfl (hE2 c))⟩)
    (hinit := ?_) (QY := fun c s => ∀ b ∈ Pipeline.ucRefs τ sig, s.mem (((c : Thread nD τ)).1, b) = V11 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact h
    · iexact HSI

end Cert.ReferenceIdeal.Run

end
-- ==== Proof.RefFrame.lean ====
import proofs.«125898_g2000504869895307_pallasbulk_559_2_alg».proof.Proof.RefData
import proofs.«125898_g2000504869895307_pallasbulk_559_2_alg».proof.Proof.RefCond
import Idealize.ShloMosaic.Lib.Pipeline.Kit

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen Cert.ReferenceIdeal.Reg0 Cert.ReferenceIdeal.Reg1

variable {F : FTy → Type} [FloatOps F]

local notation "𝕄" => MT nD τ sig Unit (Elt F) ℕ (UR sig nD τ) ℕ

/-! # The reference's run: its two regions as segments between the host stretches

Each region is entered from the thread state "every unscoped buffer at the boundary's contents, the generator
register at some state, nothing owed" and left at the same shape of state at the next boundary's contents: its
windows' arrays are split out of the unscoped buffers at entry and put back at what the write-backs leave at exit. -/

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c

/-! ## The boundary contents, read reference by reference -/

/-- Off its output array, region 0 leaves every buffer as it found it. -/
theorem VB0_of (c : Dev nD) (r : Ref sig .tc) (h : r ≠ main_v8) : VB0 m c r = V9 m c r := by
  unfold VB0; exact Function.update_of_ne (StableHlo.devRef_ne_of_ne h) _ _
/-- Region 0's output array holds the sixteen write-backs. -/
theorem VB0_main_v8 (c : Dev nD) : VB0 m c main_v8 = X8 m c := by
  unfold VB0; exact Function.update_self ..
/-- Off its output array, region 1 leaves every buffer as it found it. -/
theorem VC0_of (c : Dev nD) (r : Ref sig .tc) (h : r ≠ main_v9) : VC0 m c r = VB0 m c r := by
  unfold VC0; exact Function.update_of_ne (StableHlo.devRef_ne_of_ne h) _ _
/-- Region 1's output array holds its write-backs. -/
theorem VC0_main_v9 (c : Dev nD) : VC0 m c main_v9 = X9 m c := by
  unfold VC0; exact Function.update_self ..

/-- At region 0's exit each of its arrays holds what the pipeline leaves: an input array what it held at entry
    (never written back, and the region's output array is another buffer), the output array the write-backs. -/
theorem hF0 (c : Dev nD) (w : Fin cfg0.W) : (dat0 (VA m) c).arrAt w cfg0.N = VB0 m c (Pipeline.arrRef spec0 w) :=
  match w with
  | ⟨0, _⟩ => (((dat0 (VA m) c).arrAt_in 0 rfl _).trans (A_eq0 (VA m) c 0)).trans (VB0_of m c _ (by decide)).symm
  | ⟨1, _⟩ => (((dat0 (VA m) c).arrAt_in 1 rfl _).trans (A_eq0 (VA m) c 1)).trans (VB0_of m c _ (by decide)).symm
  | ⟨2, _⟩ => (VB0_main_v8 m c).symm
/-- A buffer that is no array of region 0 keeps its entry contents. -/
theorem hrest0 (c : Dev nD) : ∀ b, b ∉ Finset.univ.image (Pipeline.arrRef spec0) → VB0 m c b = VA m c b :=
  fun b hb => VB0_of m c b fun e => hb (Finset.mem_image.mpr ⟨2, Finset.mem_univ _, e.symm⟩)

/-- At region 1's exit each of its arrays holds what the pipeline leaves. -/
theorem hF1 (c : Dev nD) (w : Fin cfg1.W) : (dat1 (VB m) c).arrAt w cfg1.N = VC0 m c (Pipeline.arrRef spec1 w) :=
  match w with
  | ⟨0, _⟩ => (((dat1 (VB m) c).arrAt_in 0 rfl _).trans (A_eq1 (VB m) c 0)).trans (VC0_of m c _ (by decide)).symm
  | ⟨1, _⟩ => (((dat1 (VB m) c).arrAt_in 1 rfl _).trans (A_eq1 (VB m) c 1)).trans (VC0_of m c _ (by decide)).symm
  | ⟨2, _⟩ => (((dat1 (VB m) c).arrAt_in 2 rfl _).trans (A_eq1 (VB m) c 2)).trans (VC0_of m c _ (by decide)).symm
  | ⟨3, _⟩ => (VC0_main_v9 m c).symm
/-- A buffer that is no array of region 1 keeps its entry contents. -/
theorem hrest1 (c : Dev nD) : ∀ b, b ∉ Finset.univ.image (Pipeline.arrRef spec1) → VC0 m c b = VB m c b :=
  fun b hb => VC0_of m c b fun e => hb (Finset.mem_image.mpr ⟨3, Finset.mem_univ _, e.symm⟩)

/-! ## The rest state, and the regions as segments -/

/-- What rides beside the buffers through every segment: the core's generator register at some state and its dues,
    at nothing. -/
abbrev Rst (c : Dev nD) : sProp 𝕄 := iprop((∃ r, prngReg c r) ∗ ∃ W, owes (c : Thread nD τ) (0 : CellTallies nD τ sig Unit) W)
/-- The same rest state at all three boundaries around the regions. -/
abbrev E : Fin 3 → Dev nD → sProp 𝕄 := fun _ c => Rst (F := F) c
/-- No core owes another anything: no level is assigned. -/
abbrev L : GSem nD τ sig → Finset Unit := fun _ => ∅
abbrev lv : GSem nD τ sig → Unit → ℕ := fun _ _ => 0

set_option backward.isDefEq.respectTransparency.types false in
/-- REGION 0 over the thread state: entered from every unscoped buffer at the contents the host prefix leaves, left
    with its output array at the sixteen write-backs and every other buffer as entered. Its arrays are split out of
    the unscoped buffers at entry and put back at exit; the generator register goes into the class invariant and
    comes out; nothing is owed; the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (V9 m c) ∗ E (F := F) 0 c)
  post c := iprop(StableHlo.held (c : Thread nD τ) (Pipeline.ucRefs τ sig) (VB0 m c) ∗ E (F := F) 1 c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from what region 0 leaves, left with its output array at its write-backs
    and every other buffer as entered. As region 0, except that the invariant is the accumulator's history: at the
    first point it is the class invariant, and after the last point it gives the class invariant back. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (VB0 m c) ∗ E (F := F) 1 c)
  post c := iprop(StableHlo.held (c : Thread nD τ) (Pipeline.ucRefs τ sig) (VC0 m c) ∗ E (F := F) 2 c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VB m) c)
    unfold Pipeline.ΦA
    iintro ⟨Hp, -, Hr⟩
    isplitl [Hr]; · iexact Hr
    iexact Hp
  hout c := by
    refine BIBase.Entails.trans (hout1 (VB m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (fun b => VC0 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the reference's @main terminates, nothing faulting, and in every final state each
    unscoped buffer of each core holds the last boundary's contents. -/
theorem run_all : θ_run (defs (F := F)) (onTc (τ := τ) (main (F := F))) ⟨m, fun _ => 0, ρ⟩ (fun r => ∀ c : Dev nD,
      ∀ b ∈ Pipeline.ucRefs τ sig, r.2.mem (((c : Thread nD τ)).1, b) = V11 m (outs m) c b) :=
  run_cond m emb₁ () Variants.none L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E (F := F))
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun c => by rw [V10_eq]; exact .rfl)
    (reg1 m) (fun c => by rw [V10_eq]; exact .rfl) (fun c => by rw [V11_eq]; exact .rfl)

end Cert.ReferenceIdeal.Run

end
-- ==== Proof.RefHost.lean ====
/-
  The reference's host prefix and its first region, at the extended reals.

  Every pad of the prefix has zero widths on every side, so it returns its operand; every narrowing
  conversion is the identity on the extended reals; the bias is reshaped from [256] to [1, 256].  So
  region 0 is entered with the narrowed copies of `x` and `W` holding `x` and `W`, and writes
  `xw = x · W` in sixteen row blocks of 256 rows: point `t` stores the product of rows
  `256 t … 256 t + 255` of `x` with the whole of `W`.  Region 1 is then entered with the narrowed copy
  of `A` holding `A`, the padded bias row holding the bias, and region 0's output holding `xw`.
-/
import proofs.«125898_g2000504869895307_pallasbulk_559_2_alg».proof.Proof.RefData
import proofs.«125898_g2000504869895307_pallasbulk_559_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost
import Idealize.ShloMosaic.PureOps.Ideal.Laws

set_option maxRecDepth 16384

noncomputable section

namespace Cert.ReferenceIdeal.Val

open Idealize.ShloMosaic Idealize.ShloMosaic.TcCoe Idealize.SL.Sem
open Idealize.ShloMosaic.ValueIdx
open Cert.ReferenceIdeal Cert.ReferenceIdeal.Gen Cert.ReferenceIdeal.Reg0 Cert.ReferenceIdeal.Reg1 Cert.ReferenceIdeal.Run

variable (m : (ℓ : Loc nD τ sig) → Buf (Elt Ideal) ℓ)

/-! ## The host prefix -/

/-- A pad with no low, high or interior width reads its operand at the same index (4096 × 256). -/
theorem pad_none_4096x256 (x : S4096x256.Idx → EReal) {u : Shape} (v : u.Idx → EReal)
    (h : S4096x256.Pads ![0, 0] ![0, 0] ![0, 0] S4096x256) (hu : 0 < u.numel) (i : S4096x256.Idx) :
    pad S4096x256 ![0, 0] ![0, 0] ![0, 0] x v h hu i = x i :=
  pad_apply_of_inside _ _ _ x v h hu i i fun a => match a with
    | ⟨0, _⟩ => by show (i 0).val = 0 + (i 0).val * (0 + 1); omega
    | ⟨1, _⟩ => by show (i 1).val = 0 + (i 1).val * (0 + 1); omega

/-- The same at 256 × 256. -/
theorem pad_none_256x256 (x : S256x256.Idx → EReal) {u : Shape} (v : u.Idx → EReal)
    (h : S256x256.Pads ![0, 0] ![0, 0] ![0, 0] S256x256) (hu : 0 < u.numel) (i : S256x256.Idx) :
    pad S256x256 ![0, 0] ![0, 0] ![0, 0] x v h hu i = x i :=
  pad_apply_of_inside _ _ _ x v h hu i i fun a => match a with
    | ⟨0, _⟩ => by show (i 0).val = 0 + (i 0).val * (0 + 1); omega
    | ⟨1, _⟩ => by show (i 1).val = 0 + (i 1).val * (0 + 1); omega

/-- The same at 4096 × 4096. -/
theorem pad_none_4096x4096 (x : S4096x4096.Idx → EReal) {u : Shape} (v : u.Idx → EReal)
    (h : S4096x4096.Pads ![0, 0] ![0, 0] ![0, 0] S4096x4096) (hu : 0 < u.numel) (i : S4096x4096.Idx) :
    pad S4096x4096 ![0, 0] ![0, 0] ![0, 0] x v h hu i = x i :=
  pad_apply_of_inside _ _ _ x v h hu i i fun a => match a with
    | ⟨0, _⟩ => by show (i 0).val = 0 + (i 0).val * (0 + 1); omega
    | ⟨1, _⟩ => by show (i 1).val = 0 + (i 1).val * (0 + 1); omega

/-- The same at 1 × 256. -/
theorem pad_none_1x256 (x : S1x256.Idx → EReal) {u : Shape} (v : u.Idx → EReal)
    (h : S1x256.Pads ![0, 0] ![0, 0] ![0, 0] S1x256) (hu : 0 < u.numel) (i : S1x256.Idx) :
    pad S1x256 ![0, 0] ![0, 0] ![0, 0] x v h hu i = x i :=
  pad_apply_of_inside _ _ _ x v h hu i i fun a => match a with
    | ⟨0, _⟩ => by show (i 0).val = 0 + (i 0).val * (0 + 1); omega
    | ⟨1, _⟩ => by show (i 1).val = 0 + (i 1).val * (0 + 1); omega

/-- The narrowed copy of `x` region 0 reads holds `x`. -/
theorem VA_main_v6 (c : Dev nD) (i : S4096x256.Idx) :
    (VA m c main_v6 i : EReal) = m ((c : Thread nD τ).loc main_arg1) i := by
  have e : (V9 m c main_v6 : S4096x256.Idx → EReal)
      = pad S4096x256 ![0, 0] ![0, 0] ![0, 0] (m ((c : Thread nD τ).loc main_arg1))
          (sitofp (F := Ideal) .f32 (constantI S_ 32 0#32)) pads_S4096x256_S4096x256_000_000 h_S_ := by
    show StableHlo.after hostOps0_8 (V8 m c) (Proc.devRef .tc main_v6) = _
    after_results
    rfl
  show (V9 m c main_v6 : S4096x256.Idx → EReal) i = _
  rw [e]
  exact pad_none_4096x256 _ _ _ _ i

/-- The narrowed copy of `W` region 0 reads holds `W`. -/
theorem VA_main_v7 (c : Dev nD) (i : S256x256.Idx) :
    (VA m c main_v7 i : EReal) = m ((c : Thread nD τ).loc main_arg2) i := by
  have e : (V9 m c main_v7 : S256x256.Idx → EReal)
      = pad S256x256 ![0, 0] ![0, 0] ![0, 0] (m ((c : Thread nD τ).loc main_arg2))
          (sitofp (F := Ideal) .f32 (constantI S_ 32 0#32)) pads_S256x256_S256x256_000_000 h_S_ := by
    show StableHlo.after hostOps0_8 (V8 m c) (Proc.devRef .tc main_v7) = _
    after_results
    rfl
  show (V9 m c main_v7 : S256x256.Idx → EReal) i = _
  rw [e]
  exact pad_none_256x256 _ _ _ _ i

/-- Region 1 is entered with every array but region 0's output as region 0 was entered. -/
theorem VB_of (c : Dev nD) (r : Ref sig .tc) (h : r ≠ main_v8) : VB m c r = V9 m c r := by
  show Function.update (V9 m c) main_v8 (X8 m c) r = _
  exact Function.update_of_ne (StableHlo.devRef_ne_of_ne h) _ _

/-- The narrowed copy of `A` region 1 reads holds `A`. -/
theorem VB_main_v5 (c : Dev nD) (i : S4096x4096.Idx) :
    (VB m c main_v5 i : EReal) = m ((c : Thread nD τ).loc main_arg0) i := by
  have e : (V9 m c main_v5 : S4096x4096.Idx → EReal)
      = pad S4096x4096 ![0, 0] ![0, 0] ![0, 0] (m ((c : Thread nD τ).loc main_arg0))
          (sitofp (F := Ideal) .f32 (constantI S_ 32 0#32)) pads_S4096x4096_S4096x4096_000_000 h_S_ := by
    show StableHlo.after hostOps0_8 (V8 m c) (Proc.devRef .tc main_v5) = _
    after_results
    rfl
  rw [VB_of m c main_v5 (by decide)]
  show (V9 m c main_v5 : S4096x4096.Idx → EReal) i = _
  rw [e]
  exact pad_none_4096x4096 _ _ _ _ i

/-- Region 1 reads region 0's output array as region 0 left it. -/
theorem VB_main_v8 (c : Dev nD) : VB m c main_v8 = X8 m c := by
  show Function.update (V9 m c) main_v8 (X8 m c) main_v8 = _
  exact Function.update_self _ _ _

/-- The padded bias row region 1 reads holds the bias. -/
theorem VB_main_v4 (c : Dev nD) (j : Fin 256) :
    (VB m c main_v4 (ix2 (0 : Fin 1) j) : EReal) = m ((c : Thread nD τ).loc main_arg3) (ix1 j) := by
  have e : (V9 m c main_v4 : S1x256.Idx → EReal)
      = pad S1x256 ![0, 0] ![0, 0] ![0, 0]
          (shapeCast S1x256 (m ((c : Thread nD τ).loc main_arg3) : S256.Idx → EReal) shapeCasts_S256_S1x256)
          (sitofp (F := Ideal) .f32 (constantI S_ 32 0#32)) pads_S1x256_S1x256_000_000 h_S_ := by
    show StableHlo.after hostOps0_8 (V8 m c) (Proc.devRef .tc main_v4) = _
    after_results
    rfl
  rw [VB_of m c main_v4 (by decide)]
  show (V9 m c main_v4 : S1x256.Idx → EReal) (ix2 (0 : Fin 1) j) = _
  rw [e]
  refine (pad_none_1x256 _ _ _ _ _).trans ?_
  exact shapeCast_apply _ _ (ix2 (0 : Fin 1) j) (ix1 j) (by
    rw [Shape.rowMajor_val_one, Shape.rowMajor_val_two]
    show j.val = 0 * 256 + j.val
    omega)

/-! ## Region 0's product at an index -/

/-- The product's left operand is read at the output's row … -/
theorem lhs_row (j : S256x256.Idx) (k : dot_S256x256_S256x256_S256x256_1_0_0_1_n_n.contr.Idx) :
    (dot_S256x256_S256x256_S256x256_1_0_0_1_n_n.lhsIdx j k 0).val = (j 0).val := by
  simp [DotDims.lhsIdx, dot_S256x256_S256x256_S256x256_1_0_0_1_n_n]; rfl
/-- … and the contracted column; -/
theorem lhs_col (j : S256x256.Idx) (k : dot_S256x256_S256x256_S256x256_1_0_0_1_n_n.contr.Idx) :
    (dot_S256x256_S256x256_S256x256_1_0_0_1_n_n.lhsIdx j k 1).val = (k ⟨0, by decide⟩).val :=
  dot_S256x256_S256x256_S256x256_1_0_0_1_n_n.lhsIdx_val_of_single rfl j k
/-- the right operand at the contracted row … -/
theorem rhs_row (j : S256x256.Idx) (k : dot_S256x256_S256x256_S256x256_1_0_0_1_n_n.contr.Idx) :
    (dot_S256x256_S256x256_S256x256_1_0_0_1_n_n.rhsIdx j k 0).val = (k ⟨0, by decide⟩).val :=
  dot_S256x256_S256x256_S256x256_1_0_0_1_n_n.rhsIdx_val_of_single rfl j k
/-- … and the output's column. -/
theorem rhs_col (j : S256x256.Idx) (k : dot_S256x256_S256x256_S256x256_1_0_0_1_n_n.contr.Idx) :
    (dot_S256x256_S256x256_S256x256_1_0_0_1_n_n.rhsIdx j k 1).val = (j 1).val := by
  simp [DotDims.rhsIdx, dot_S256x256_S256x256_S256x256_1_0_0_1_n_n]; rfl

/-- The body's stored value at `(p, q)`: the sum over the 256 contracted channels of the products of
    row `p` of the first block with column `q` of the second. -/
theorem pay_apply (x0 x1 : FVec Ideal S256x256 .bf16) (p q : Fin 256) :
    (k0_pay1 (F := Ideal) x0 x1 (ix2 p q) : EReal) = ∑ k : Fin 256, x0 (ix2 p k) * x1 (ix2 k q) := by
  unfold k0_pay1
  show FloatOps.matmul dot_S256x256_S256x256_S256x256_1_0_0_1_n_n none
      (shapeCast S256x256 x0 shapeCasts_S256x256_S256x256) (shapeCast S256x256 x1 shapeCasts_S256x256_S256x256)
      (constant S256x256 .f32 0x00000000#32) (ix2 p q) = _
  refine (Ideal.matmul_constant_zero_apply _ none _ _ (ix2 p q)).trans ?_
  rw [shapeCast_self, shapeCast_self,
    ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have l : dot_S256x256_S256x256_S256x256_1_0_0_1_n_n.lhsIdx (ix2 p q)
      ((contrEquiv1 dot_S256x256_S256x256_S256x256_1_0_0_1_n_n 256 rfl rfl).symm k) = ix2 p k := by
    funext a; apply Fin.ext
    match a with
    | ⟨0, _⟩ => exact lhs_row _ _
    | ⟨1, _⟩ => exact (lhs_col _ _).trans hk
  have r : dot_S256x256_S256x256_S256x256_1_0_0_1_n_n.rhsIdx (ix2 p q)
      ((contrEquiv1 dot_S256x256_S256x256_S256x256_1_0_0_1_n_n 256 rfl rfl).symm k) = ix2 k q := by
    funext a; apply Fin.ext
    match a with
    | ⟨0, _⟩ => exact (rhs_row _ _).trans hk
    | ⟨1, _⟩ => exact rhs_col _ _
  rw [l, r]

/-! ## From region 0's blocks to its output array -/

theorem zero_offsets : (![0, 0] : Fin 2 → Nat) = fun _ => 0 := funext fun a => by fin_cases a <;> rfl

/-- The windows' index maps at each of the sixteen points: the `x` window and the output window are at row
    block `t`, column block 0; the `W` window is the whole of `W`. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The launch contents of `x` and of `W`, as arrays of extended reals. -/
abbrev xArr (c : Dev nD) : S4096x256.Idx → EReal := m ((c : Thread nD τ).loc main_arg1)
abbrev wArr (c : Dev nD) : S256x256.Idx → EReal := m ((c : Thread nD τ).loc main_arg2)

/-- Row `p` of row block `t`, as a row of the whole array. -/
def rowOf (t : Fin cfg0.N) (p : Fin 256) : Fin 4096 :=
  ⟨t.val * 256 + p.val, by have h := t.isLt; have hN : cfg0.N = 16 := N_0; have := p.isLt; omega⟩

/-- Entry `(p, k)` of the `x` window's block at point `t` is `x` at row `256 t + p`, column `k`. -/
theorem xblock_apply (c : Dev nD) (t : Fin cfg0.N) (p k : Fin 256) :
    (iblk0 (VA m) c 0 t (ix2 p k) : EReal) = xArr m c (ix2 (rowOf t p) k) := by
  obtain ⟨e0, e1, -⟩ := index_maps t
  show (VA m c main_v6 (((cfg0.win 0).blk t).view.emb (ix2 p k)) : EReal) = _
  rw [VA_main_v6]
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 256 + 1 * k.val = k.val; omega

/-- Entry `(k, q)` of the `W` window's block at any point is `W` there. -/
theorem wblock_apply (c : Dev nD) (t : Fin cfg0.N) (k q : Fin 256) :
    (iblk0 (VA m) c 1 t (ix2 k q) : EReal) = wArr m c (ix2 k q) := by
  obtain ⟨-, -, e2, e3, -⟩ := index_maps t
  show (VA m c main_v7 (((cfg0.win 1).blk t).view.emb (ix2 k q)) : EReal) = _
  rw [VA_main_v7]
  refine congrArg _ (funext fun a => Fin.ext ?_)
  match a with
  | ⟨0, _⟩ => show win0_1.index t (0 : Fin 2) * 256 + 1 * k.val = k.val; omega
  | ⟨1, _⟩ => show win0_1.index t (1 : Fin 2) * 256 + 1 * q.val = q.val; omega

/-- Entry `(p, q)` of the output window's block at point `t` sits at row `256 t + p`, column `q` of the output array. -/
theorem oblock_emb (t : Fin cfg0.N) (p q : Fin 256) :
    ((cfg0.win 2).blk t).view.emb (ix2 p q) = ix2 (rowOf t p) q := by
  obtain ⟨-, -, -, -, e4, e5⟩ := index_maps t
  refine funext fun a => Fin.ext ?_
  match a with
  | ⟨0, _⟩ => show win0_2.index t (0 : Fin 2) * 256 + 1 * p.val = t.val * 256 + p.val; omega
  | ⟨1, _⟩ => show win0_2.index t (1 : Fin 2) * 256 + 1 * q.val = q.val; omega

/-- The feature product as the contents of region 0's output array. -/
def xwArr (c : Dev nD) : Buf (Elt Ideal) ((c : Thread nD τ).loc main_v8) :=
  Cert.Spec.xw (xArr m c) (wArr m c)

/-- What point `t` writes back is row block `t` of the feature product. -/
theorem flushed_xw (c : Dev nD) (t : Fin cfg0.N) :
    (dat0 (VA m) c).flushed 2 t = ((cfg0.win 2).blk t).view.read (Elt Ideal) (xwArr m c) := by
  show (cfg0.win 2).cut (grid0.coords t) ((dat0 (VA m) c).after 2 t) = _
  rw [after0_2]
  unfold out0_2
  rw [View.canon_unit_zero zero_offsets]
  simp only [View.ld_unit_zero (S := S256x256) zero_offsets]
  funext j
  obtain ⟨p, q, rfl⟩ : ∃ (p : Fin 256) (q : Fin 256), j = ix2 p q := ⟨j 0, j 1, eq_ix2 j⟩
  show (k0_pay1 (F := Ideal) (iblk0 (VA m) c 0 t) (iblk0 (VA m) c 1 t) (ix2 p q) : EReal)
    = xwArr m c (((cfg0.win 2).blk t).view.emb (ix2 p q))
  refine (pay_apply (iblk0 (VA m) c 0 t) (iblk0 (VA m) c 1 t) p q).trans ?_
  rw [oblock_emb]
  show _ = ∑ k : Fin 256, xArr m c (ix2 (rowOf t p) k) * wArr m c (ix2 k q)
  exact Finset.sum_congr rfl fun k _ => by rw [xblock_apply, wblock_apply]

/-- Every row of the output array lies in the block of the point `row / 256`. -/
theorem rows_covered (i : S4096x256.Idx) :
    ∃ t : Fin cfg0.N, (cfg0.win 2).flush t = true ∧ i ∈ ((cfg0.win 2).blk t).view.set := by
  have hi0 : (i 0).val < 4096 := (i 0).isLt
  have hi1 : (i 1).val < 256 := (i 1).isLt
  let t : Fin cfg0.N := ⟨(i 0).val / 256, by rw [show cfg0.N = 16 from N_0]; omega⟩
  refine ⟨t, flush0_2 t, ?_⟩
  have e : i = ((cfg0.win 2).blk t).view.emb (ix2 (⟨(i 0).val % 256, Nat.mod_lt _ (by decide)⟩ : Fin 256) (⟨(i 1).val, hi1⟩ : Fin 256)) := by
    rw [oblock_emb]
    refine funext fun a => Fin.ext ?_
    match a with
    | ⟨0, _⟩ => show (i 0).val = (i 0).val / 256 * 256 + (i 0).val % 256; omega
    | ⟨1, _⟩ => rfl
  rw [e]
  exact View.emb_mem_set _ _

/-- What region 0 leaves in its output array is the feature product. -/
theorem X8_eq (c : Dev nD) (i : S4096x256.Idx) :
    (X8 m c i : EReal) = Cert.Spec.xw (m ((c : Thread nD τ).loc main_arg1)) (m ((c : Thread nD τ).loc main_arg2)) i := by
  have h := (dat0 (VA m) c).arrAt_eq_of_cover 2 (xwArr m c) (fun t _ => flushed_xw m c t) rows_covered
  unfold X8
  rw [h]
  rfl

end Cert.ReferenceIdeal.Val

end
-- ==== Proof.RefPay.lean ====
/-
  The reference's four kernel payloads read at one entry, at the extended reals.

  Both kernels multiply 256 × 256 blocks into a zero accumulator: entry `(p, q)` of the product is the sum over
  the 256 inner positions.  The first kernel narrows the product (the identity on the extended reals); the second
  adds it to the running block, and at the end adds the bias of column `q` and clamps below at zero.  A shape cast
  to the same shape and a broadcast of the zero word contribute nothing.
-/
import proofs.«125898_g2000504869895307_pallasbulk_559_2_alg».proof.Proof.Gen.ReferenceIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Pay

open Idealize.ShloMosaic Idealize.SL.Sem
open Idealize.ShloMosaic.ValueIdx
open Cert.ReferenceIdeal Cert.ReferenceIdeal.Gen

/-! ## The block product at an entry

The one contracted axis is the left block's columns and the right block's rows: the operand entries of
output entry `(p, q)` at inner position `k` are `(p, k)` and `(k, q)`. -/

/-- Left operand, row axis: the output's row. -/
theorem prodL_row (i : S256x256.Idx) (k : dot_S256x256_S256x256_S256x256_1_0_0_1_n_n.contr.Idx) :
    (dot_S256x256_S256x256_S256x256_1_0_0_1_n_n.lhsIdx i k 0).val = (i 0).val := by
  unfold DotDims.lhsIdx
  rw [dif_neg (show ¬(0 : Fin S256x256.rank) ∈ dot_S256x256_S256x256_S256x256_1_0_0_1_n_n.lhsBatch by decide),
    dif_pos (show (0 : Fin S256x256.rank) ∈ dot_S256x256_S256x256_S256x256_1_0_0_1_n_n.lhsNonContracting by decide)]
  rfl
/-- Left operand, column axis: the inner position. -/
theorem prodL_col (i : S256x256.Idx) (k : dot_S256x256_S256x256_S256x256_1_0_0_1_n_n.contr.Idx) :
    (dot_S256x256_S256x256_S256x256_1_0_0_1_n_n.lhsIdx i k 1).val = (k ⟨0, by decide⟩).val :=
  dot_S256x256_S256x256_S256x256_1_0_0_1_n_n.lhsIdx_val_of_single rfl i k
/-- Right operand, row axis: the inner position. -/
theorem prodR_row (i : S256x256.Idx) (k : dot_S256x256_S256x256_S256x256_1_0_0_1_n_n.contr.Idx) :
    (dot_S256x256_S256x256_S256x256_1_0_0_1_n_n.rhsIdx i k 0).val = (k ⟨0, by decide⟩).val :=
  dot_S256x256_S256x256_S256x256_1_0_0_1_n_n.rhsIdx_val_of_single rfl i k
/-- Right operand, column axis: the output's column. -/
theorem prodR_col (i : S256x256.Idx) (k : dot_S256x256_S256x256_S256x256_1_0_0_1_n_n.contr.Idx) :
    (dot_S256x256_S256x256_S256x256_1_0_0_1_n_n.rhsIdx i k 1).val = (i 1).val := by
  unfold DotDims.rhsIdx
  rw [dif_neg (show ¬(1 : Fin S256x256.rank) ∈ dot_S256x256_S256x256_S256x256_1_0_0_1_n_n.rhsBatch by decide),
    dif_pos (show (1 : Fin S256x256.rank) ∈ dot_S256x256_S256x256_S256x256_1_0_0_1_n_n.rhsNonContracting by decide)]
  rfl

/-- The product of two 256 × 256 blocks into the zero accumulator, at entry `(p, q)`: row `p` of the left
    block against column `q` of the right one. -/
theorem prod_apply (l r : FVec Ideal S256x256 .bf16) (p q : Fin 256) :
    FloatOps.matmul (F := Ideal) dot_S256x256_S256x256_S256x256_1_0_0_1_n_n none l r (constant S256x256 .f32 0x00000000#32) (ix2 p q)
      = ∑ kk : Fin 256, l (ix2 p kk) * r (ix2 kk q) := by
  rw [Ideal.matmul_constant_zero_apply, ← Equiv.sum_comp (contrEquiv1 dot_S256x256_S256x256_S256x256_1_0_0_1_n_n 256 rfl rfl).symm]
  refine Finset.sum_congr rfl fun kk _ => ?_
  have hk := contrEquiv1_symm_val dot_S256x256_S256x256_S256x256_1_0_0_1_n_n 256 rfl rfl kk
  have el : dot_S256x256_S256x256_S256x256_1_0_0_1_n_n.lhsIdx (ix2 p q) ((contrEquiv1 dot_S256x256_S256x256_S256x256_1_0_0_1_n_n 256 rfl rfl).symm kk) = ix2 p kk :=
    funext fun a => Fin.ext (by
      match a with
      | ⟨0, _⟩ => exact prodL_row _ _
      | ⟨1, _⟩ => exact (prodL_col _ _).trans hk)
  have er : dot_S256x256_S256x256_S256x256_1_0_0_1_n_n.rhsIdx (ix2 p q) ((contrEquiv1 dot_S256x256_S256x256_S256x256_1_0_0_1_n_n 256 rfl rfl).symm kk) = ix2 kk q :=
    funext fun a => Fin.ext (by
      match a with
      | ⟨0, _⟩ => exact (prodR_row _ _).trans hk
      | ⟨1, _⟩ => exact prodR_col _ _)
  rw [el, er]

/-- The bias row copied down the 256 rows of a block reads, at `(p, q)`, the bias of column `q`. -/
theorem biasRows_apply (b : FVec Ideal S1x256 .f32) (p q : Fin 256) :
    broadcastTo S256x256 b broadcasts_S1x256_S256x256 (ix2 p q) = b (ix2 (0 : Fin 1) q) :=
  broadcastTo_apply b broadcasts_S1x256_S256x256 (ix2 p q) (ix2 (0 : Fin 1) q) fun a => by
    match a with
    | ⟨0, _⟩ => rfl
    | ⟨1, _⟩ => rfl

/-! ## The four stored blocks -/

/-- The feature kernel's stored block: the product of its two blocks. -/
theorem k0_pay1_apply (x0 x1 : Vec Ideal S256x256 .bf16) (p q : Fin 256) :
    (k0_pay1 (F := Ideal) x0 x1 (ix2 p q) : EReal) = ∑ kk : Fin 256, (x0 (ix2 p kk) : EReal) * (x1 (ix2 kk q) : EReal) := by
  unfold k0_pay1
  show FloatOps.matmul (F := Ideal) dot_S256x256_S256x256_S256x256_1_0_0_1_n_n none
      (shapeCast S256x256 x0 shapeCasts_S256x256_S256x256) (shapeCast S256x256 x1 shapeCasts_S256x256_S256x256)
      (constant S256x256 .f32 0x00000000#32) (ix2 p q) = _
  rw [shapeCast_self, shapeCast_self]
  exact prod_apply x0 x1 p q

/-- The reset block is zero everywhere. -/
theorem k1_pay1_apply (p q : Fin 256) : (k1_pay1 (F := Ideal) (ix2 p q) : EReal) = 0 := by
  unfold k1_pay1
  show shapeCast S256x256 (broadcast S256x256 (Ideal.ofBits .f32 0x00000000#32)) shapeCasts_S256x256_S256x256 (ix2 p q) = 0
  rw [shapeCast_self]
  exact Ideal.ofBits_zero_f32

/-- One accumulation step: the running block plus the product of the two blocks. -/
theorem k1_pay2_apply (xs : Vec Ideal S256x256 .f32) (x0 x1 : Vec Ideal S256x256 .bf16) (p q : Fin 256) :
    (k1_pay2 (F := Ideal) xs x0 x1 (ix2 p q) : EReal)
      = (xs (ix2 p q) : EReal) + ∑ kk : Fin 256, (x0 (ix2 p kk) : EReal) * (x1 (ix2 kk q) : EReal) := by
  unfold k1_pay2
  show shapeCast S256x256 (addf (F := Ideal) xs (FloatOps.matmul (F := Ideal) dot_S256x256_S256x256_S256x256_1_0_0_1_n_n none
      (shapeCast S256x256 x0 shapeCasts_S256x256_S256x256) (shapeCast S256x256 x1 shapeCasts_S256x256_S256x256)
      (constant S256x256 .f32 0x00000000#32))) shapeCasts_S256x256_S256x256 (ix2 p q) = _
  rw [shapeCast_self, shapeCast_self, shapeCast_self]
  exact congrArg (fun z => (xs (ix2 p q) : EReal) + z) (prod_apply x0 x1 p q)

/-- The epilogue: the accumulated block plus the bias of the column, clamped below at zero. -/
theorem k1_pay3_apply (acc : Vec Ideal S256x256 .f32) (x2 : Vec Ideal S1x256 .f32) (p q : Fin 256) :
    (k1_pay3 (F := Ideal) acc x2 (ix2 p q) : EReal) = max ((acc (ix2 p q) : EReal) + (x2 (ix2 (0 : Fin 1) q) : EReal)) 0 := by
  unfold k1_pay3
  show max ((acc (ix2 p q) : EReal)
      + broadcastTo S256x256 (shapeCast S1x256 x2 shapeCasts_S1x256_S1x256) broadcasts_S1x256_S256x256 (ix2 p q))
      (Ideal.ofBits .f32 0x00000000#32) = _
  rw [shapeCast_self, biasRows_apply]
  exact congrArg (max ((acc (ix2 p q) : EReal) + (x2 (ix2 (0 : Fin 1) q) : EReal))) Ideal.ofBits_zero_f32

end Cert.ReferenceIdeal.Pay

end
-- ==== Proof.RefAgg.lean ====
/-
  The reference's second region, at the extended reals: the accumulated row blocks are the layer.

  The grid point `t = 16 i + k` reads block `(i, k)` of `A` and block `k` of `xw`.  Over the sixteen
  points of row block `i` the accumulator goes `0 + P₀`, `(0 + P₀) + P₁`, …, where `P_k[p, q] =
  ∑ kk < 256, A[256 i + p, 256 k + kk] · xw[256 k + kk, q]`; at `k = 15` it holds, entry by entry, the
  sum over all 4096 nodes, regrouped in sixteen consecutive runs of 256 — a regrouping of a finite sum in a
  commutative monoid, with `0 +` in front.  The last point adds the bias of column `q`, clamps below at
  zero and writes the block back; the sixteen written blocks tile the output array.
-/
import proofs.«125898_g2000504869895307_pallasbulk_559_2_alg».proof.Proof.RefHost
import proofs.«125898_g2000504869895307_pallasbulk_559_2_alg».proof.Proof.RefPay
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost
import Idealize.ShloMosaic.PureOps.Ideal.Laws
import Mathlib.Algebra.BigOperators.Fin
import Mathlib.Algebra.BigOperators.Group.Finset.Basic

set_option maxRecDepth 16384

noncomputable section

namespace Cert.ReferenceIdeal.Val

open Idealize.ShloMosaic Idealize.ShloMosaic.TcCoe Idealize.SL.Sem
open Idealize.ShloMosaic.ValueIdx
open Cert.ReferenceIdeal Cert.ReferenceIdeal.Gen Cert.ReferenceIdeal.Reg0 Cert.ReferenceIdeal.Reg1 Cert.ReferenceIdeal.Run
open Cert.ReferenceIdeal.Pay

variable (m : (ℓ : Loc nD τ sig) → Buf (Elt Ideal) ℓ)

/-! ## A sum over an initial segment, grown by one run of 256 terms -/

/-- The sum of the first `256 (k + 1)` terms is the sum of the first `256 k` plus the next run of 256. -/
theorem sum_range_run (f : ℕ → EReal) (k : ℕ) :
    (∑ n ∈ Finset.range (256 * k), f n) + ∑ kk : Fin 256, f (256 * k + kk.val)
      = ∑ n ∈ Finset.range (256 * (k + 1)), f n := by
  rw [show 256 * (k + 1) = 256 * k + 256 from by ring, Finset.sum_range_add]
  exact congrArg _ (Finset.sum_range fun x => f (256 * k + x)).symm

/-! ## The arrays by natural coordinates -/

/-- The adjacency matrix `A`, the feature product `x · W` and the bias `b` of the launch contents. -/
abbrev argA (c : Dev nD) : S4096x4096.Idx → EReal := m ((c : Thread nD τ).loc main_arg0)
abbrev argXW (c : Dev nD) : S4096x256.Idx → EReal :=
  Cert.Spec.xw (m ((c : Thread nD τ).loc main_arg1)) (m ((c : Thread nD τ).loc main_arg2))
abbrev argB (c : Dev nD) : S256.Idx → EReal := m ((c : Thread nD τ).loc main_arg3)

/-- Entry `(r, n)` of `A` (zero outside the array: never read there). -/
def aN (c : Dev nD) (r n : ℕ) : EReal :=
  if h : r < 4096 ∧ n < 4096 then argA m c (ix2 (⟨r, h.1⟩ : Fin 4096) (⟨n, h.2⟩ : Fin 4096)) else 0

/-- Entry `(n, q)` of the feature product `x · W` (zero outside the array: never read there). -/
def xN (c : Dev nD) (n q : ℕ) : EReal :=
  if h : n < 4096 ∧ q < 256 then argXW m c (ix2 (⟨n, h.1⟩ : Fin 4096) (⟨q, h.2⟩ : Fin 256)) else 0

/-- Node `n`'s term of entry `(r, q)` of `A · (x · W)`. -/
def term (c : Dev nD) (r q n : ℕ) : EReal := aN m c r n * xN m c n q

/-- The layer, as contents of the output array. -/
abbrev layer (c : Dev nD) : Buf (Elt Ideal) ((c : Thread nD τ).loc main_v9) :=
  Cert.Spec.gcn (m ((c : Thread nD τ).loc main_arg0)) (m ((c : Thread nD τ).loc main_arg1))
    (m ((c : Thread nD τ).loc main_arg2)) (m ((c : Thread nD τ).loc main_arg3))

/-! ## The blocks a point reads -/

/-- The block of `A`, of `x · W` and of the bias row at point `t`. -/
abbrev ablk (c : Dev nD) (t : Fin cfg1.N) : Vec Ideal S256x256 .bf16 := iblk1 (VB m) c 0 t
abbrev xblk (c : Dev nD) (t : Fin cfg1.N) : Vec Ideal S256x256 .bf16 := iblk1 (VB m) c 1 t
abbrev bblk (c : Dev nD) (t : Fin cfg1.N) : Vec Ideal S1x256 .f32 := iblk1 (VB m) c 2 t

/-- The windows' index maps over the grid: point `t` is row block `t / 16`, reduction block `t % 16`; the bias row
    never moves. -/
theorem idx1 : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = 0 :=
  (by decide +kernel : ∀ t : Fin grid1.N, _)

/-- Entry `(p, kk)` of the block of `A` at point `t = 16 i + k` is `A[256 i + p, 256 k + kk]`. -/
theorem ablk_entry (c : Dev nD) (t : Fin cfg1.N) (i k : ℕ) (hi : t.val / 16 = i) (hk : t.val % 16 = k) (p kk : Fin 256) :
    (ablk m c t (ix2 p kk) : EReal) = aN m c (256 * i + p.val) (256 * k + kk.val) := by
  subst hi hk
  obtain ⟨e0, e1, -⟩ := idx1 t
  have hN : cfg1.N = 256 := N_1
  have ht := t.isLt
  have hp := p.isLt
  have hkk := kk.isLt
  unfold aN
  rw [dif_pos ⟨by omega, by omega⟩]
  unfold ablk iblk1
  rw [View.read_apply]
  show (VB m c main_v5 _ : EReal) = _
  refine (VB_main_v5 m c _).trans ?_
  refine congrArg (m ((c : Thread nD τ).loc main_arg0)) (funext fun a => Fin.ext ?_)
  match a with
  | ⟨0, _⟩ => show win1_0.index t (0 : Fin 2) * 256 + 1 * p.val = 256 * (t.val / 16) + p.val; omega
  | ⟨1, _⟩ => show win1_0.index t (1 : Fin 2) * 256 + 1 * kk.val = 256 * (t.val % 16) + kk.val; omega

/-- Entry `(kk, q)` of the block of `x · W` at point `t = 16 i + k` is `(x · W)[256 k + kk, q]`. -/
theorem xblk_entry (c : Dev nD) (t : Fin cfg1.N) (k : ℕ) (hk : t.val % 16 = k) (kk q : Fin 256) :
    (xblk m c t (ix2 kk q) : EReal) = xN m c (256 * k + kk.val) q.val := by
  subst hk
  obtain ⟨-, -, e0, e1, -⟩ := idx1 t
  have hN : cfg1.N = 256 := N_1
  have ht := t.isLt
  have hq := q.isLt
  have hkk := kk.isLt
  unfold xN
  rw [dif_pos ⟨by omega, by omega⟩]
  unfold xblk iblk1
  rw [View.read_apply]
  show (VB m c main_v8 _ : EReal) = _
  refine (congrFun (VB_main_v8 m c) _).trans ?_
  refine (X8_eq m c _).trans ?_
  refine congrArg (Cert.Spec.xw (m ((c : Thread nD τ).loc main_arg1)) (m ((c : Thread nD τ).loc main_arg2))) (funext fun a => Fin.ext ?_)
  match a with
  | ⟨0, _⟩ => show win1_1.index t (0 : Fin 2) * 256 + 1 * kk.val = 256 * (t.val % 16) + kk.val; omega
  | ⟨1, _⟩ => show win1_1.index t (1 : Fin 2) * 256 + 1 * q.val = q.val; omega

/-- Entry `(0, q)` of the bias row's block, at any point, is the bias of column `q`. -/
theorem bblk_entry (c : Dev nD) (t : Fin cfg1.N) (q : Fin 256) :
    (bblk m c t (ix2 (0 : Fin 1) q) : EReal) = m ((c : Thread nD τ).loc main_arg3) (ix1 q) := by
  obtain ⟨-, -, -, -, e0, e1, -⟩ := idx1 t
  unfold bblk iblk1
  rw [View.read_apply]
  show (VB m c main_v4 _ : EReal) = _
  refine Eq.trans ?_ (VB_main_v4 m c q)
  refine congrArg (VB m c main_v4) (funext fun a => Fin.ext ?_)
  match a with
  | ⟨0, _⟩ => show win1_2.index t (0 : Fin 2) * 1 + 1 * 0 = 0; omega
  | ⟨1, _⟩ => show win1_2.index t (1 : Fin 2) * 256 + 1 * q.val = q.val; omega

/-- So the product of the two blocks' entries is node `256 k + kk`'s term of entry `(256 i + p, q)`. -/
theorem prod_entry (c : Dev nD) (t : Fin cfg1.N) (i k : ℕ) (hi : t.val / 16 = i) (hk : t.val % 16 = k) (p q kk : Fin 256) :
    (ablk m c t (ix2 p kk) : EReal) * (xblk m c t (ix2 kk q) : EReal) = term m c (256 * i + p.val) q.val (256 * k + kk.val) := by
  unfold term
  rw [ablk_entry m c t i k hi hk p kk, xblk_entry m c t k hk kk q]

/-! ## The accumulator, entry by entry -/

/-- The first step of a row block leaves zero plus the first run of 256 terms. -/
theorem reset_sum (x0 x1 : Vec Ideal S256x256 .bf16) (f : ℕ → EReal) (p q : Fin 256)
    (h01 : ∀ kk : Fin 256, (x0 (ix2 p kk) : EReal) * (x1 (ix2 kk q) : EReal) = f kk.val) :
    (accStep0 x0 x1 (ix2 p q) : EReal) = 0 + ∑ n ∈ Finset.range 256, f n := by
  unfold accStep0
  refine (k1_pay2_apply (k1_pay1 (F := Ideal)) x0 x1 p q).trans ?_
  rw [k1_pay1_apply, Finset.sum_range]
  exact congrArg _ (Finset.sum_congr rfl fun kk _ => h01 kk)

/-- A later step adds the next run of 256 terms to what the step before left. -/
theorem step_sum (xs : Vec Ideal S256x256 .f32) (x0 x1 : Vec Ideal S256x256 .bf16) (f : ℕ → EReal) (k : ℕ) (p q : Fin 256)
    (hxs : (xs (ix2 p q) : EReal) = 0 + ∑ n ∈ Finset.range (256 * k), f n)
    (h01 : ∀ kk : Fin 256, (x0 (ix2 p kk) : EReal) * (x1 (ix2 kk q) : EReal) = f (256 * k + kk.val)) :
    (accStep xs x0 x1 (ix2 p q) : EReal) = 0 + ∑ n ∈ Finset.range (256 * (k + 1)), f n := by
  unfold accStep
  refine (k1_pay2_apply xs x0 x1 p q).trans ?_
  rw [hxs, add_assoc, ← sum_range_run f k]
  exact congrArg _ (congrArg _ (Finset.sum_congr rfl fun kk _ => h01 kk))

/-- At the first reduction step of a row block the accumulator's entry is zero plus the first 256 terms. -/
theorem reset_case (c : Dev nD) (t : Fin cfg1.N) (h : t.val % 16 = 0) (p q : Fin 256) :
    (accAt (VB m) c t.val t.isLt (ix2 p q) : EReal)
      = 0 + ∑ x ∈ Finset.range (256 * (t.val % 16 + 1)), term m c (256 * (t.val / 16) + p.val) q.val x := by
  refine (congrFun (accAt_reset (VB m) c t h) (ix2 p q)).trans ?_
  rw [h]
  exact reset_sum (ablk m c t) (xblk m c t) (term m c (256 * (t.val / 16) + p.val) q.val) p q
    (fun kk => (prod_entry m c t (t.val / 16) 0 rfl h p q kk).trans (by rw [Nat.mul_zero, Nat.zero_add]))

/-- At a later reduction step it is the entry the step before left plus the step's own 256 terms. -/
theorem step_case (c : Dev nD) (t : Fin cfg1.N) (h : ¬t.val % 16 = 0) (p q : Fin 256)
    (ih : (accAt (VB m) c (t.val - 1) (Nat.lt_of_le_of_lt (Nat.sub_le _ _) t.isLt) (ix2 p q) : EReal)
      = 0 + ∑ x ∈ Finset.range (256 * ((t.val - 1) % 16 + 1)), term m c (256 * ((t.val - 1) / 16) + p.val) q.val x) :
    (accAt (VB m) c t.val t.isLt (ix2 p q) : EReal)
      = 0 + ∑ x ∈ Finset.range (256 * (t.val % 16 + 1)), term m c (256 * (t.val / 16) + p.val) q.val x := by
  refine (congrFun (accAt_step (VB m) c t h) (ix2 p q)).trans ?_
  have hdiv : (t.val - 1) / 16 = t.val / 16 := by omega
  have hmod : t.val % 16 = (t.val - 1) % 16 + 1 := by omega
  rw [hdiv] at ih
  rw [hmod]
  exact step_sum _ (ablk m c t) (xblk m c t) (term m c (256 * (t.val / 16) + p.val) q.val) ((t.val - 1) % 16 + 1) p q ih
    (fun kk => prod_entry m c t (t.val / 16) ((t.val - 1) % 16 + 1) rfl hmod p q kk)

/-- After the point `n = 16 i + k` the accumulator's entry `(p, q)` is zero plus the terms of the nodes below
    `256 (k + 1)` of entry `(256 i + p, q)`: by induction on the point. -/
theorem acc_entry (c : Dev nD) (p q : Fin 256) : ∀ (n : ℕ) (hn : n < cfg1.N),
    (accAt (VB m) c n hn (ix2 p q) : EReal)
      = 0 + ∑ x ∈ Finset.range (256 * (n % 16 + 1)), term m c (256 * (n / 16) + p.val) q.val x := by
  intro n
  induction n with
  | zero => intro hn; exact reset_case m c ⟨0, hn⟩ (Nat.zero_mod 16) p q
  | succ n ih =>
    intro hn
    by_cases h : (n + 1) % 16 = 0
    · exact reset_case m c ⟨n + 1, hn⟩ h p q
    · exact step_case m c ⟨n + 1, hn⟩ h p q (ih _)

/-! ## The written blocks and the array -/

/-- At the last reduction step of row block `i` the body's output entry `(p, q)` is the layer's entry
    `(256 i + p, q)`: the sixteen runs of 256 are all 4096 nodes. -/
theorem out_entry (c : Dev nD) (t : Fin cfg1.N) (h15 : t.val % 16 = 15) (p q : Fin 256) (r : Fin 4096)
    (hr : r.val = 256 * (t.val / 16) + p.val) :
    (outAt (VB m) c t (ix2 p q) : EReal) = layer m c (ix2 r q) := by
  unfold outAt outStep
  refine (k1_pay3_apply (accAt (VB m) c t.val t.isLt) (bblk m c t) p q).trans ?_
  rw [acc_entry m c p q t.val t.isLt, bblk_entry m c t q, h15, zero_add, ← hr]
  show max ((∑ x ∈ Finset.range 4096, term m c r.val q.val x) + _) 0
    = max ((∑ k : Fin 4096, argA m c (ix2 r k) * argXW m c (ix2 k q)) + argB m c (ix1 q)) 0
  rw [Finset.sum_range]
  refine congrArg (fun s => max (s + _) 0) (Finset.sum_congr rfl fun k _ => ?_)
  unfold term aN xN
  rw [dif_pos (⟨r.isLt, k.isLt⟩ : r.val < 4096 ∧ k.val < 4096), dif_pos (⟨k.isLt, q.isLt⟩ : k.val < 4096 ∧ q.val < 256)]

/-- What a flushing point writes back is its block of the layer. -/
theorem flushed_eq (c : Dev nD) (t : Fin cfg1.N) (hf : (cfg1.win 3).flush t = true) :
    (dat1 (VB m) c).flushed 3 t = ((cfg1.win 3).blk t).view.read (Elt Ideal) (layer m c) := by
  have h15 : t.val % 16 = 15 := (flush1_3 t).mp hf
  obtain ⟨-, -, -, -, -, -, e0, e1⟩ := idx1 t
  have hN : cfg1.N = 256 := N_1
  have ht := t.isLt
  show (cfg1.win 3).cut (grid1.coords t) ((dat1 (VB m) c).after 3 t) = _
  rw [after1_3]
  funext j
  obtain ⟨p, q, rfl⟩ : ∃ (p q : Fin 256), j = ix2 p q := ⟨j 0, j 1, eq_ix2 (n0 := 256) (n1 := 256) j⟩
  have hp := p.isLt
  rw [View.read_apply]
  show (outAt (VB m) c t (ix2 p q) : EReal) = layer m c (((cfg1.win 3).blk t).view.emb (ix2 p q))
  refine (out_entry m c t h15 p q ⟨256 * (t.val / 16) + p.val, by omega⟩ rfl).trans ?_
  refine congrArg (layer m c) (funext fun a => Fin.ext ?_)
  match a with
  | ⟨0, _⟩ => show 256 * (t.val / 16) + p.val = win1_3.index t (0 : Fin 2) * 256 + 1 * p.val; omega
  | ⟨1, _⟩ => show q.val = win1_3.index t (1 : Fin 2) * 256 + 1 * q.val; omega

/-- An index of the output array is in point `t`'s block iff each coordinate is in the block's range. -/
theorem mem_blk3 (t : Fin cfg1.N) (i : S4096x256.Idx) :
    i ∈ ((cfg1.win 3).blk t).view.set ↔ ∀ a : Fin 2, win1_3.index t a * S256x256.size a ≤ (i a).val
      ∧ (i a).val < win1_3.index t a * S256x256.size a + S256x256.size a := by
  show i ∈ ((View.whole main_v9).slice (win1_3.rect t)).set ↔ _
  rw [View.set_slice_whole, Rect.mem_set_unit]
  exact Iff.rfl

/-- Row `r` of the output array is in the block written back at the last reduction step of row block `r / 256`. -/
theorem covered (i : S4096x256.Idx) :
    ∃ t : Fin cfg1.N, (cfg1.win 3).flush t = true ∧ i ∈ ((cfg1.win 3).blk t).view.set := by
  have hN : cfg1.N = 256 := N_1
  have h0 : (i 0).val < 4096 := (i 0).isLt
  have h1 : (i 1).val < 256 := (i 1).isLt
  obtain ⟨t, ht⟩ : ∃ t : Fin cfg1.N, t.val = 16 * ((i 0).val / 256) + 15 := ⟨⟨16 * ((i 0).val / 256) + 15, by omega⟩, rfl⟩
  obtain ⟨-, -, -, -, -, -, e0, e1⟩ := idx1 t
  refine ⟨t, (flush1_3 t).mpr (by omega), ?_⟩
  rw [mem_blk3]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 256 ≤ (i 1).val ∧ (i 1).val < win1_3.index t (1 : Fin 2) * 256 + 256; omega

/-- What region 1 leaves in its output array is the layer's function of the launch contents of the four
    argument arrays. -/
theorem X9_eq (c : Dev nD) :
    X9 (F := Ideal) m c
      = Cert.Spec.gcn (m ((c : Thread nD τ).loc main_arg0)) (m ((c : Thread nD τ).loc main_arg1))
          (m ((c : Thread nD τ).loc main_arg2)) (m ((c : Thread nD τ).loc main_arg3)) :=
  (dat1 (VB m) c).arrAt_eq_of_cover 3 (layer m c) (flushed_eq m c) (fun i => covered i)

end Cert.ReferenceIdeal.Val

end
-- ==== Proof.lean ====
/-
  relu (A · (x · W) + b) on 4096 nodes and 256 channels: a kernel of two row-tiled pallas_calls against a
  reference that is itself two pallas_calls, the second tiled over rows AND over the reduction axis with a
  scratch accumulator.

  At the extended reals both programs compute ONE function of the four argument arrays (`Cert.Spec.gcn`):
  `xw[r, j] = ∑ k < 256, x[r, k] · W[k, j]`, then `max ((∑ k < 4096, A[r, k] · xw[k, j]) + b[j]) 0`.  Every
  change of float format (the bf16 narrowings of both programs) is the identity there, the reference's four
  pads have zero widths, and its sixteen accumulated block products per row block are the whole sum regrouped in
  consecutive runs of 256 with `0 +` in front: finite sums in a commutative monoid, so no finiteness of the
  inputs is used.

  The kernel's value is read off its two regions' write-backs (KValue.lean, over the run of KRun.lean); the
  reference's frame is proved by hand, region by region (RefReg0.lean, RefReg1.lean: the second carries the
  accumulator in its invariant), launched through RefFrame.lean / RefCond.lean, and its value read off the
  accumulated blocks (RefHost.lean, RefAgg.lean).  The ideal pass rewrote nothing, so `preserves` is `True`.
-/
import proofs.«125898_g2000504869895307_pallasbulk_559_2_alg».proof.Defs
import proofs.«125898_g2000504869895307_pallasbulk_559_2_alg».proof.Proof.Gen.Kernel
import proofs.«125898_g2000504869895307_pallasbulk_559_2_alg».proof.Proof.Gen.Kernel.Skeleton
import proofs.«125898_g2000504869895307_pallasbulk_559_2_alg».proof.Proof.Gen.Kernel.Launch
import proofs.«125898_g2000504869895307_pallasbulk_559_2_alg».proof.Proof.Gen.Kernel.Points
import proofs.«125898_g2000504869895307_pallasbulk_559_2_alg».proof.Proof.Gen.Kernel.Frame
import proofs.«125898_g2000504869895307_pallasbulk_559_2_alg».proof.Proof.Gen.KernelIdeal
import proofs.«125898_g2000504869895307_pallasbulk_559_2_alg».proof.Proof.Gen.KernelIdeal.Skeleton
import proofs.«125898_g2000504869895307_pallasbulk_559_2_alg».proof.Proof.Gen.KernelIdeal.Launch
import proofs.«125898_g2000504869895307_pallasbulk_559_2_alg».proof.Proof.Gen.KernelIdeal.Points
import proofs.«125898_g2000504869895307_pallasbulk_559_2_alg».proof.Proof.Gen.KernelIdeal.Frame
import proofs.«125898_g2000504869895307_pallasbulk_559_2_alg».proof.Proof.Gen.ReferenceIdeal
import proofs.«125898_g2000504869895307_pallasbulk_559_2_alg».proof.Proof.Gen.ReferenceIdeal.Skeleton
import proofs.«125898_g2000504869895307_pallasbulk_559_2_alg».proof.Proof.Gen.ReferenceIdeal.Launch
import proofs.«125898_g2000504869895307_pallasbulk_559_2_alg».proof.Proof.Gen.ReferenceIdeal.Regions
import proofs.«125898_g2000504869895307_pallasbulk_559_2_alg».proof.Proof.Gen.ReferenceIdeal.Points
import proofs.«125898_g2000504869895307_pallasbulk_559_2_alg».proof.Proof.Gen.Pre_finite_inputs
import proofs.«125898_g2000504869895307_pallasbulk_559_2_alg».proof.Proof.KValue
import proofs.«125898_g2000504869895307_pallasbulk_559_2_alg».proof.Proof.RefFrame
import proofs.«125898_g2000504869895307_pallasbulk_559_2_alg».proof.Proof.RefAgg
import Idealize.ShloMosaic.Adequacy
import Idealize.ShloMosaic.Init

noncomputable section

namespace Cert.Proof

open Idealize.ShloMosaic Idealize.ShloMosaic.TcCoe Idealize.SL.Sem

/-- An unscoped reference of the reference program is among those the last thread state holds. -/
theorem ref_mem_uc (b : Ref Cert.ReferenceIdeal.sig .tc)
    (h : ¬ (Proc.devRef .tc b : DevRef Cert.ReferenceIdeal.τ Cert.ReferenceIdeal.sig).isScoped) :
    Proc.devRef .tc b ∈ Pipeline.ucRefs Cert.ReferenceIdeal.τ Cert.ReferenceIdeal.sig :=
  Finset.mem_filter.mpr ⟨StableHlo.devRef_mem_tcRefs b, h⟩

theorem frame_k : Cert.frame_Kernel := fun m ρ _ => Cert.Kernel.Gen.frame m ρ
theorem frame_ki : Cert.frame_KernelIdeal := fun m ρ _ => Cert.KernelIdeal.Gen.frame m ρ

/-- The reference's frame: its run with every unscoped buffer's final contents named, read at the four argument
    arrays, which no host stretch writes and no region may change. -/
theorem frame_ri : Cert.frame_ReferenceIdeal := fun m ρ _ =>
  (θ_run (Cert.ReferenceIdeal.defs (F := Ideal)) _ _).mono (fun r h c =>
    ⟨(h c _ (ref_mem_uc Cert.ReferenceIdeal.main_arg0 (by decide))).trans (Cert.ReferenceIdeal.Gen.V11_main_arg0 m (Cert.ReferenceIdeal.Run.outs m) c),
     (h c _ (ref_mem_uc Cert.ReferenceIdeal.main_arg1 (by decide))).trans (Cert.ReferenceIdeal.Gen.V11_main_arg1 m (Cert.ReferenceIdeal.Run.outs m) c),
     (h c _ (ref_mem_uc Cert.ReferenceIdeal.main_arg2 (by decide))).trans (Cert.ReferenceIdeal.Gen.V11_main_arg2 m (Cert.ReferenceIdeal.Run.outs m) c),
     (h c _ (ref_mem_uc Cert.ReferenceIdeal.main_arg3 (by decide))).trans (Cert.ReferenceIdeal.Gen.V11_main_arg3 m (Cert.ReferenceIdeal.Run.outs m) c)⟩)
    (Cert.ReferenceIdeal.Run.run_all (F := Ideal) m ρ)

/-- The ideal pass rewrote no operation: nothing to preserve. -/
theorem preserves : Cert.preserves_Kernel_KernelIdeal := trivial

/-- Both programs end with their result arrays at the layer's function of the kernel's argument arrays: the
    kernel by its two regions' write-backs, the reference by its accumulated blocks, its arguments agreeing with
    the kernel's. -/
theorem algebraic : Cert.algebraic_KernelIdeal_ReferenceIdeal := by
  intro m ρ m' ρ' _ hagree
  refine ⟨fun c => Cert.Spec.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Val.run_value m ρ, ?_⟩
  refine (θ_run (Cert.ReferenceIdeal.defs (F := Ideal)) _ _).mono (fun r h c => ⟨?_, ?_, ?_, ?_, ?_⟩)
    (Cert.ReferenceIdeal.Run.run_all (F := Ideal) m' ρ')
  · refine (h c _ (ref_mem_uc Cert.ReferenceIdeal.main_v9 (by decide))).trans ?_
    refine (Cert.ReferenceIdeal.Run.V11_main_v9 m' c).trans ?_
    refine (Cert.ReferenceIdeal.Val.X9_eq m' c).trans ?_
    rw [(hagree c).1, (hagree c).2.1, (hagree c).2.2.1, (hagree c).2.2.2]
  · exact (h c _ (ref_mem_uc Cert.ReferenceIdeal.main_arg0 (by decide))).trans (Cert.ReferenceIdeal.Gen.V11_main_arg0 m' (Cert.ReferenceIdeal.Run.outs m') c)
  · exact (h c _ (ref_mem_uc Cert.ReferenceIdeal.main_arg1 (by decide))).trans (Cert.ReferenceIdeal.Gen.V11_main_arg1 m' (Cert.ReferenceIdeal.Run.outs m') c)
  · exact (h c _ (ref_mem_uc Cert.ReferenceIdeal.main_arg2 (by decide))).trans (Cert.ReferenceIdeal.Gen.V11_main_arg2 m' (Cert.ReferenceIdeal.Run.outs m') c)
  · exact (h c _ (ref_mem_uc Cert.ReferenceIdeal.main_arg3 (by decide))).trans (Cert.ReferenceIdeal.Gen.V11_main_arg3 m' (Cert.ReferenceIdeal.Run.outs m') c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
